-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S128x128 : Shape := ⟨2, ![128, 128]⟩
abbrev S128 : Shape := ⟨1, ![128]⟩
abbrev S288x128 : Shape := ⟨2, ![288, 128]⟩
abbrev S128x1 : Shape := ⟨2, ![128, 1]⟩
abbrev S1 : Shape := ⟨1, ![1]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S288x128 : S_.BroadcastsInDim S288x128 (![] : Fin 0 → Fin S288x128.rank)
  reducesTo_S288x128_S_d0_1 : S288x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128x128 .f32) (main_arg8 : FVec F S288x128 .f32) (main_arg9 : FVec F S128 .f32) (main_arg10 : FVec F S128x1 .f32) (main_arg11 : FVec F S1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S288x128 .f32 := Host.absf main_arg8
  let main_cst_14 : FVec F S_ .f32 := constant S_ .f32 0x7F800000#32
  let main_v40 : FVec F S288x128 .f32 := broadcastInDim S288x128 ![] bcast_S_S288x128 main_cst_14
  let main_v41 : IVec S288x128 1 := cmpf .olt main_v39 main_v40
  let main_c_15 : IVec S_ 1 := constantI S_ 1 1#1
  let main_v42 : IVec S_ 1 := (fun x v => Host.reduce IntOp.andi x v reducesTo_S288x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S128x128 .f32) (main_arg5 : FVec F S128x128 .f32) (main_arg6 : FVec F S128 .f32) (main_arg7 : FVec F S128x128 .f32) (main_arg8 : FVec F S288x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S800000x32 .f32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S288x128 .f32) (main_arg9 : FVec F S128 .f32) (main_arg10 : FVec F S128x1 .f32) (main_arg11 : FVec F S1 .f32) (main_arg12 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S800000x32 : Shape := ⟨2, ![800000, 32]⟩
abbrev S128x128 : Shape := ⟨2, ![128, 128]⟩
abbrev S128 : Shape := ⟨1, ![128]⟩
abbrev S288x128 : Shape := ⟨2, ![288, 128]⟩
abbrev S128x1 : Shape := ⟨2, ![128, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S32x128 : Shape := ⟨2, ![32, 128]⟩
abbrev S1x1 : Shape := ⟨2, ![1, 1]⟩
abbrev S8000x128 : Shape := ⟨2, ![8000, 128]⟩
abbrev S8000x32 : Shape := ⟨2, ![8000, 32]⟩
abbrev S8000x1 : Shape := ⟨2, ![8000, 1]⟩
abbrev S8000 : Shape := ⟨1, ![8000]⟩

abbrev nBuf : Space → Nat
  | .hbm => 94
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S288x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000x1, .f32⟩
  | .hbm, ⟨32, _⟩ => ⟨S_, .f32⟩
  | .hbm, ⟨33, _⟩ => ⟨S50000x1, .f32⟩
  | .hbm, ⟨34, _⟩ => ⟨S800000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S_, .f32⟩
  | .hbm, ⟨57, _⟩ => ⟨S800000x1, .f32⟩
  | .hbm, ⟨58, _⟩ => ⟨S_, .f32⟩
  | .hbm, ⟨59, _⟩ => ⟨S50000x1, .f32⟩
  | .hbm, ⟨60, _⟩ => ⟨S800000x1, .i32⟩
  | .hbm, ⟨61, _⟩ => ⟨S50000x1, .f32⟩
  | .hbm, ⟨62, _⟩ => ⟨S_, .f32⟩
  | .hbm, ⟨63, _⟩ => ⟨S50000x1, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x128, .f32⟩
  | .hbm, ⟨87, _⟩ => ⟨S128x128, .f32⟩
  | .hbm, ⟨88, _⟩ => ⟨S128x128, .f32⟩
  | .hbm, ⟨89, _⟩ => ⟨S32x128, .f32⟩
  | .hbm, ⟨90, _⟩ => ⟨S1x128, .f32⟩
  | .hbm, ⟨91, _⟩ => ⟨S1x128, .f32⟩
  | .hbm, ⟨92, _⟩ => ⟨S1x1, .f32⟩
  | .hbm, ⟨93, _⟩ => ⟨S800000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S8000x32, .f32⟩
  | .local _ .vmem, ⟨23, _⟩ => ⟨S8000x32, .f32⟩
  | .local _ .vmem, ⟨24, _⟩ => ⟨S128x128, .f32⟩
  | .local _ .vmem, ⟨25, _⟩ => ⟨S128x128, .f32⟩
  | .local _ .vmem, ⟨26, _⟩ => ⟨S32x128, .f32⟩
  | .local _ .vmem, ⟨27, _⟩ => ⟨S1x128, .f32⟩
  | .local _ .vmem, ⟨28, _⟩ => ⟨S1x128, .f32⟩
  | .local _ .vmem, ⟨29, _⟩ => ⟨S1x1, .f32⟩
  | .local _ .vmem, ⟨30, _⟩ => ⟨S8000x1, .f32⟩
  | .local _ .vmem, ⟨31, _⟩ => ⟨S8000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_12 : Ref sig .tc := ⟨.hbm, 78, rfl⟩
abbrev main_v51 : Ref sig .tc := ⟨.hbm, 79, rfl⟩
abbrev main_v52 : Ref sig .tc := ⟨.hbm, 80, rfl⟩
abbrev main_c_13 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S288x128_S128x128_0_0 : S288x128.Slices ![0, 0] S128x128
  slices_S288x128_S128x128_128_0 : S288x128.Slices ![128, 0] S128x128
  slices_S288x128_S32x128_256_0 : S288x128.Slices ![256, 0] S32x128
  shapeCasts_S128x1_S1x128 : S128x1.ShapeCasts S1x128
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x32_S8000x32_0_0 : ∀ a, (![0, 0] : Fin 2 → Nat) a + S8000x32.size a ≤ S8000x32.size a
  h_S8000x32 : 0 < S8000x32.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  broadcasts_S1x128_S8000x128 : S1x128.Broadcasts S8000x128
  reduces_S8000x128_S8000 : S8000x128.Reduces [1] S8000
  shapeCasts_S8000_S8000x1 : S8000.ShapeCasts S8000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  dot_S8000x128_S128x128_S8000x128_1_0_0_1_n_n_wf : DotDims.WF S8000x128 S128x128 S8000x128 [1] [0] [0] [1] [] []
  dot_S8000x32_S32x128_S8000x128_1_0_0_1_n_n_wf : DotDims.WF S8000x32 S32x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S800000x32.size a
  hwx2_2 : ∀ i : grid2.Coords, EltTy.bits .f32 = 32 ∨ (Rect.block (s := S800000x32) S8000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x128.size a ≤ S32x128.size a
  hwx2_5 : ∀ i : grid2.Coords, EltTy.bits .f32 = 32 ∨ (Rect.block (s := S32x128) S32x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8000x1.size a ≤ S800000x1.size a
  hwx2_9 : ∀ i : grid2.Coords, EltTy.bits .f32 = 32 ∨ (Rect.block (s := S800000x1) S8000x1.size (cc2_transform_9 i) (hinb2_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S8000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v58) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S32x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v63) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v64) S8000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S128x128 : Shape := ⟨2, ![128, 128]⟩
abbrev S128 : Shape := ⟨1, ![128]⟩
abbrev S288x128 : Shape := ⟨2, ![288, 128]⟩
abbrev S128x1 : Shape := ⟨2, ![128, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S800000x288 : Shape := ⟨2, ![800000, 288]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S288x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000x1, .f32⟩
  | .hbm, ⟨32, _⟩ => ⟨S_, .f32⟩
  | .hbm, ⟨33, _⟩ => ⟨S50000x1, .f32⟩
  | .hbm, ⟨34, _⟩ => ⟨S800000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000x1, .f32⟩
  | .hbm, ⟨65, _⟩ => ⟨S_, .f32⟩
  | .hbm, ⟨66, _⟩ => ⟨S50000x1, .f32⟩
  | .hbm, ⟨67, _⟩ => ⟨S800000x1, .i32⟩
  | .hbm, ⟨68, _⟩ => ⟨S50000x1, .f32⟩
  | .hbm, ⟨69, _⟩ => ⟨S_, .f32⟩
  | .hbm, ⟨70, _⟩ => ⟨S50000x1, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x128, .f32⟩
  | .hbm, ⟨98, _⟩ => ⟨S800000x288, .f32⟩
  | .hbm, ⟨99, _⟩ => ⟨S800000x128, .f32⟩
  | .hbm, ⟨100, _⟩ => ⟨S1x128, .f32⟩
  | .hbm, ⟨101, _⟩ => ⟨S800000x128, .f32⟩
  | .hbm, ⟨102, _⟩ => ⟨S800000x128, .f32⟩
  | .hbm, ⟨103, _⟩ => ⟨S_, .f32⟩
  | .hbm, ⟨104, _⟩ => ⟨S800000x128, .f32⟩
  | .hbm, ⟨105, _⟩ => ⟨S800000x128, .f32⟩
  | .hbm, ⟨106, _⟩ => ⟨S800000x1, .f32⟩
  | .hbm, ⟨107, _⟩ => ⟨S1x1, .f32⟩
  | .hbm, ⟨108, _⟩ => ⟨S800000x1, .f32⟩
  | .hbm, ⟨109, _⟩ => ⟨S800000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call1_cst : Ref sig .tc := ⟨.hbm, 103, rfl⟩
abbrev main_call1_v0 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S800000x128_S800000x128_S800000x32_S800000x288_d1 : Shape.Concatenates [S800000x128, S800000x128, S800000x32] S800000x288 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S800000x288_S288x128_S800000x128_1_0_0_1_n_n_wf : DotDims.WF S800000x288 S288x128 S800000x128 [1] [0] [0] [1] [] []
  dot_S800000x128_S128x1_S800000x1_1_0_0_1_n_n_wf : DotDims.WF S800000x128 S128x1 S800000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x288_S288x128_S800000x128_1_0_0_1_n_n : DotDims S800000x288 S288x128 S800000x128 where
  lhsContracting := [1]
  rhsContracting := [0]
  lhsNonContracting := [0]
  rhsNonContracting := [1]
  lhsBatch := []
  rhsBatch := []
  wf := dot_S800000x288_S288x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.EdgeGcnSpec.lean ====
/-
  The mathematics of the edge classifier over a two-layer mean-aggregation graph network, as whole-array functions of
  extended reals, index by index.

  A dense layer takes the aggregated neighbour features `agg` and the node's own features `x` (both 50000 × 128) and gives,
  at row `n` and column `c`,
      (Σₖ agg[n,k] · Wagg[k,c]) + (Σₖ x[n,k] · Wroot[k,c]) + b[c],
  optionally clipped below at zero. The edge head takes, per edge `e`, the two endpoint embeddings `hs[e,·]`, `hd[e,·]`
  (128 wide) and the edge's own 32 features `ea[e,·]`, forms the hidden row
      hid[e,c] = max ((Σₖ hs[e,k]·Ws[k,c] + Σₖ hd[e,k]·Wd[k,c]) + Σₖ ea[e,k]·We[k,c] + b1[c]) 0
  and returns  Σ_c hid[e,c] · w2[c]  +  b2.
  Every sum is a finite sum in the commutative monoid of the extended reals, so regrouping it needs no finiteness.
-/
import Idealize.ShloMosaic.PureOps.Ideal
import Idealize.ShloMosaic.Lib.ValueIdx

noncomputable section

open scoped BigOperators

namespace Cert.EdgeGcn

open Idealize.ShloMosaic Idealize.ShloMosaic.ValueIdx

/-- node features: 50000 nodes × 128 channels -/
abbrev SNode : Shape := ⟨2, ![50000, 128]⟩
/-- a square weight: 128 × 128 -/
abbrev SSq : Shape := ⟨2, ![128, 128]⟩
/-- a bias kept as one row: 1 × 128 -/
abbrev SRow : Shape := ⟨2, ![1, 128]⟩
/-- per-edge endpoint embeddings: 800000 × 128 -/
abbrev SEdge : Shape := ⟨2, ![800000, 128]⟩
/-- per-edge attributes: 800000 × 32 -/
abbrev SAttr : Shape := ⟨2, ![800000, 32]⟩
/-- the attribute block of the first head weight: 32 × 128 -/
abbrev SWAttr : Shape := ⟨2, ![32, 128]⟩
/-- the last bias: 1 × 1 -/
abbrev SOne : Shape := ⟨2, ![1, 1]⟩
/-- the result: one logit per edge, 800000 × 1 -/
abbrev SOut : Shape := ⟨2, ![800000, 1]⟩

/-! ## Indices by coordinates -/

/-- row of `i`, column `k`, in the node array -/
abbrev nodeRowAt (i : SNode.Idx) (k : Fin 128) : SNode.Idx := fun a => match a with
  | ⟨0, _⟩ => ⟨(i 0).val, (i 0).isLt⟩
  | ⟨1, _⟩ => ⟨k.val, k.isLt⟩
/-- row `k`, column of `i`, in a square weight -/
abbrev sqColAt (i : SNode.Idx) (k : Fin 128) : SSq.Idx := fun a => match a with
  | ⟨0, _⟩ => ⟨k.val, k.isLt⟩
  | ⟨1, _⟩ => ⟨(i 1).val, (i 1).isLt⟩
/-- the bias row at the column of `i` -/
abbrev rowAt (i : SNode.Idx) : SRow.Idx := fun a => match a with
  | ⟨0, _⟩ => ⟨0, Nat.one_pos⟩
  | ⟨1, _⟩ => ⟨(i 1).val, (i 1).isLt⟩

/-- edge `e`, channel `k`, of an endpoint embedding -/
abbrev edgeAt (e : Fin 800000) (k : Fin 128) : SEdge.Idx := ix2 e k
/-- edge `e`, feature `k`, of the edge attributes -/
abbrev attrAt (e : Fin 800000) (k : Fin 32) : SAttr.Idx := ix2 e k
/-- entry (k, c) of a square weight -/
abbrev sqAt (k c : Fin 128) : SSq.Idx := ix2 k c
/-- entry (k, c) of the attribute weight -/
abbrev wattrAt (k : Fin 32) (c : Fin 128) : SWAttr.Idx := ix2 k c
/-- column `c` of a bias row -/
abbrev biasAt (c : Fin 128) : SRow.Idx := ix2 (0 : Fin 1) c
/-- the one entry of the last bias -/
abbrev oneAt : SOne.Idx := ix2 (0 : Fin 1) (0 : Fin 1)

/-- The three row/column builders in coordinates. -/
theorem nodeRowAt_eq (i : SNode.Idx) (k : Fin 128) : nodeRowAt i k = ix2 (⟨(i 0).val, (i 0).isLt⟩ : Fin 50000) k := by
  funext a; match a with | ⟨0, _⟩ => rfl | ⟨1, _⟩ => rfl
theorem sqColAt_eq (i : SNode.Idx) (k : Fin 128) : sqColAt i k = sqAt k ⟨(i 1).val, (i 1).isLt⟩ := by
  funext a; match a with | ⟨0, _⟩ => rfl | ⟨1, _⟩ => rfl
theorem rowAt_eq (i : SNode.Idx) : rowAt i = biasAt ⟨(i 1).val, (i 1).isLt⟩ := by
  funext a; match a with | ⟨0, _⟩ => rfl | ⟨1, _⟩ => rfl

/-! ## The dense layer -/

/-- The layer before its activation: both projections, then the bias. -/
def denseLin (agg x : SNode.Idx → EReal) (wagg : SSq.Idx → EReal) (b : SRow.Idx → EReal) (wroot : SSq.Idx → EReal) :
    SNode.Idx → EReal := fun i =>
  (∑ k : Fin 128, agg (nodeRowAt i k) * wagg (sqColAt i k)) + (∑ k : Fin 128, x (nodeRowAt i k) * wroot (sqColAt i k))
    + b (rowAt i)

/-- The layer clipped below at zero (zero as the word 0x00000000 denotes it). -/
def denseRelu (agg x : SNode.Idx → EReal) (wagg : SSq.Idx → EReal) (b : SRow.Idx → EReal) (wroot : SSq.Idx → EReal) :
    SNode.Idx → EReal := fun i =>
  max (denseLin agg x wagg b wroot i) (Ideal.ofBits .f32 0x00000000#32)

/-! ## The edge head -/

/-- Hidden unit `c` of edge `e`: the three projections, the bias, clipped below at zero. -/
def edgeHidden (hs hd : SEdge.Idx → EReal) (ea : SAttr.Idx → EReal) (ws wd : SSq.Idx → EReal) (we : SWAttr.Idx → EReal)
    (b1 : SRow.Idx → EReal) (e : Fin 800000) (c : Fin 128) : EReal :=
  max ((∑ k : Fin 128, hs (edgeAt e k) * ws (sqAt k c)) + (∑ k : Fin 128, hd (edgeAt e k) * wd (sqAt k c))
      + (∑ k : Fin 32, ea (attrAt e k) * we (wattrAt k c)) + b1 (biasAt c))
    (Ideal.ofBits .f32 0x00000000#32)

/-- The logit of each edge: the hidden row against the second weight's row, plus the last bias. -/
def edgeLogit (hs hd : SEdge.Idx → EReal) (ea : SAttr.Idx → EReal) (ws wd : SSq.Idx → EReal) (we : SWAttr.Idx → EReal)
    (b1 w2 : SRow.Idx → EReal) (b2 : SOne.Idx → EReal) : SOut.Idx → EReal := fun i =>
  (∑ c : Fin 128, edgeHidden hs hd ea ws wd we b1 ⟨(i 0).val, (i 0).isLt⟩ c * w2 (biasAt c)) + b2 oneAt

end Cert.EdgeGcn

end
-- ==== Proof.Dense0Value.lean ====
/-
  The first dense layer's kernel, read as a value: over a grid of ten row blocks of 5000 nodes, each point multiplies its
  block of aggregated features and its block of node features by the two resident 128 × 128 weights, adds the bias row and
  clips below at zero. Row `n` of the result therefore depends on row `n` of the two inputs only, the blocks tile the 50000
  rows, and the array the region leaves is `denseRelu` of the arrays it found.
-/
import proofs.«128906_j55078660604120_1_alg».proof.Proof.Gen.KernelIdeal.Frame
import proofs.«128906_j55078660604120_1_alg».proof.Proof.EdgeGcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense0

open Idealize.ShloMosaic Idealize.ShloMosaic.TcCoe Idealize.SL.Sem Idealize.ShloMosaic.ValueIdx
open Cert.KernelIdeal Cert.KernelIdeal.Gen Cert.EdgeGcn
open Idealize.ShloMosaic.Pipeline (Dat)

variable (V : (c : Dev nD) → (b : Ref sig .tc) → Buf (Elt Ideal) ((c : Thread nD τ).loc b))

/-- The zero offsets of a whole-buffer access, as the constant function. -/
theorem offsets_zero : (![0, 0] : Fin 2 → Nat) = fun _ => 0 := funext fun a => by fin_cases a <;> rfl

/-! ## The block product at an index

The kernel's product contracts the second axis of a 5000 × 128 block with the first axis of a 128 × 128 weight. The four
coordinate facts below say which entry of each operand the contraction index `q` meets at output index `i`. -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block times a weight, accumulated into zeros, at row `p` and column `q`: the sum over the 128 channels. -/
theorem block_product_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The payload at an index

Rounding to the narrower format is the identity on extended reals, and so is a cast to the same shape; what is left at row
`p` and column `q` of a block is the two channel sums, the bias entry of the column, and the clip at zero. -/

/-- What the body stores, at row `p` and column `q` of the block, from the blocks it loaded. -/
theorem payload_apply (agg x : Vec Ideal S5000x128 .f32) (wagg wroot : Vec Ideal S128x128 .f32) (b : Vec Ideal S1x128 .f32)
    (p : Fin 5000) (q : Fin 128) :
    (k0_pay1 (F := Ideal) agg x wagg wroot b) (ix2 p q)
      = max ((∑ k : Fin 128, agg (ix2 p k) * wagg (ix2 k q)) + (∑ k : Fin 128, x (ix2 p k) * wroot (ix2 k q))
          + b (ix2 (0 : Fin 1) q)) (Ideal.ofBits .f32 0x00000000#32) := by
  unfold k0_pay1
  rw [maximumf_apply, addf_apply, addf_apply, block_product_apply, block_product_apply, broadcastTo_1b_ab_apply,
    shapeCast_self, shapeCast_self]
  rfl

/-! ## From blocks to the array -/

/-- The payload at block entry `(p, q)`, when the five blocks are restrictions of five arrays to the row of `i`, the
    column of `i` and the bias entry of `i`'s column: the clipped dense layer at `i`. -/
theorem dense_of_blocks (A X : SNode.Idx → EReal) (Wa Wr : SSq.Idx → EReal) (B : SRow.Idx → EReal)
    (agg x : Vec Ideal S5000x128 .f32) (wagg wroot : Vec Ideal S128x128 .f32) (b : Vec Ideal S1x128 .f32)
    (i : SNode.Idx) (p : Fin 5000) (q : Fin 128)
    (hagg : ∀ k : Fin 128, agg (ix2 p k) = A (nodeRowAt i k))
    (hx : ∀ k : Fin 128, x (ix2 p k) = X (nodeRowAt i k))
    (hwagg : ∀ k : Fin 128, wagg (ix2 k q) = Wa (sqColAt i k))
    (hwroot : ∀ k : Fin 128, wroot (ix2 k q) = Wr (sqColAt i k))
    (hb : b (ix2 (0 : Fin 1) q) = B (rowAt i)) :
    k0_pay1 (F := Ideal) agg x wagg wroot b (ix2 p q) = denseRelu A X Wa B Wr i := by
  rw [payload_apply]
  unfold denseRelu denseLin
  simp only [hagg, hx, hwagg, hwroot, hb]

/-- The windows' index maps over the ten points: the two feature windows move with the output window down the rows, the
    weights and the bias stay at block (0, 0), and the output's row block at point `t` is block `t`. -/
theorem block_indices : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the aggregated-features block at point `t` is the array's row under the output block's row `p`. -/
theorem agg_row (c : Dev nD) (t : Fin cfg0.N) (p : Fin 5000) (q k : Fin 128) :
    (iblk0 V c 0 t : Vec Ideal S5000x128 .f32) (ix2 p k)
      = V c main_v21 (nodeRowAt (((cfg0.win 5).blk t).view.emb (ix2 p q)) k) := by
  obtain ⟨e00, e01, -⟩ := block_indices t
  show V c main_v21 (((cfg0.win 0).blk t).view.emb (ix2 p k)) = _
  refine congrArg (V c main_v21) (funext fun a => Fin.ext ?_)
  match a with
  | ⟨0, _⟩ => show win0_0.index t (0 : Fin 2) * 5000 + 1 * p.val = win0_5.index t (0 : Fin 2) * 5000 + 1 * p.val; rw [e00]
  | ⟨1, _⟩ => show win0_0.index t (1 : Fin 2) * 128 + 1 * k.val = k.val; rw [e01]; omega

/-- Row `p` of the node-features block at point `t` likewise. -/
theorem x_row (c : Dev nD) (t : Fin cfg0.N) (p : Fin 5000) (q k : Fin 128) :
    (iblk0 V c 1 t : Vec Ideal S5000x128 .f32) (ix2 p k)
      = V c main_arg0 (nodeRowAt (((cfg0.win 5).blk t).view.emb (ix2 p q)) k) := by
  obtain ⟨-, -, e10, e11, -⟩ := block_indices t
  show V c main_arg0 (((cfg0.win 1).blk t).view.emb (ix2 p k)) = _
  refine congrArg (V c main_arg0) (funext fun a => Fin.ext ?_)
  match a with
  | ⟨0, _⟩ => show win0_1.index t (0 : Fin 2) * 5000 + 1 * p.val = win0_5.index t (0 : Fin 2) * 5000 + 1 * p.val; rw [e10]
  | ⟨1, _⟩ => show win0_1.index t (1 : Fin 2) * 128 + 1 * k.val = k.val; rw [e11]; omega

/-- Column `q` of the resident neighbour weight is the array's column under the output block's column `q`. -/
theorem wagg_col (c : Dev nD) (t : Fin cfg0.N) (p : Fin 5000) (q k : Fin 128) :
    (iblk0 V c 2 t : Vec Ideal S128x128 .f32) (ix2 k q)
      = V c main_arg2 (sqColAt (((cfg0.win 5).blk t).view.emb (ix2 p q)) k) := by
  obtain ⟨-, -, -, -, e20, e21, -, -, -, -, -, e51⟩ := block_indices t
  show V c main_arg2 (((cfg0.win 2).blk t).view.emb (ix2 k q)) = _
  refine congrArg (V c main_arg2) (funext fun a => Fin.ext ?_)
  match a with
  | ⟨0, _⟩ => show win0_2.index t (0 : Fin 2) * 128 + 1 * k.val = k.val; rw [e20]; omega
  | ⟨1, _⟩ => show win0_2.index t (1 : Fin 2) * 128 + 1 * q.val = win0_5.index t (1 : Fin 2) * 128 + 1 * q.val; rw [e21, e51]

/-- Column `q` of the resident root weight likewise. -/
theorem wroot_col (c : Dev nD) (t : Fin cfg0.N) (p : Fin 5000) (q k : Fin 128) :
    (iblk0 V c 4 t : Vec Ideal S128x128 .f32) (ix2 k q)
      = V c main_arg4 (sqColAt (((cfg0.win 5).blk t).view.emb (ix2 p q)) k) := by
  obtain ⟨-, -, -, -, -, -, -, -, e40, e41, -, e51⟩ := block_indices t
  show V c main_arg4 (((cfg0.win 4).blk t).view.emb (ix2 k q)) = _
  refine congrArg (V c main_arg4) (funext fun a => Fin.ext ?_)
  match a with
  | ⟨0, _⟩ => show win0_4.index t (0 : Fin 2) * 128 + 1 * k.val = k.val; rw [e40]; omega
  | ⟨1, _⟩ => show win0_4.index t (1 : Fin 2) * 128 + 1 * q.val = win0_5.index t (1 : Fin 2) * 128 + 1 * q.val; rw [e41, e51]

/-- Entry `q` of the resident bias row is the array's entry under the output block's column `q`. -/
theorem bias_entry (c : Dev nD) (t : Fin cfg0.N) (p : Fin 5000) (q : Fin 128) :
    (iblk0 V c 3 t : Vec Ideal S1x128 .f32) (ix2 (0 : Fin 1) q)
      = V c main_v22 (rowAt (((cfg0.win 5).blk t).view.emb (ix2 p q))) := by
  obtain ⟨-, -, -, -, -, -, e30, e31, -, -, -, e51⟩ := block_indices t
  show V c main_v22 (((cfg0.win 3).blk t).view.emb (ix2 (0 : Fin 1) q)) = _
  refine congrArg (V c main_v22) (funext fun a => Fin.ext ?_)
  match a with
  | ⟨0, _⟩ => show win0_3.index t (0 : Fin 2) * 1 + 1 * 0 = 0; rw [e30]
  | ⟨1, _⟩ => show win0_3.index t (1 : Fin 2) * 128 + 1 * q.val = win0_5.index t (1 : Fin 2) * 128 + 1 * q.val; rw [e31, e51]

/-- What point `t` writes back is block `t` of the clipped dense layer of the five arrays. -/
theorem flushed_eq (c : Dev nD) (t : Fin cfg0.N) :
    (dat0 (F := Ideal) V c).flushed 5 t
      = ((cfg0.win 5).blk t).view.read (Elt Ideal)
          (denseRelu (V c main_v21) (V c main_arg0) (V c main_arg2) (V c main_v22) (V c main_arg4)) := by
  show (cfg0.win 5).cut (grid0.coords t) ((dat0 V c).after 5 t) = _
  rw [after0_5]
  unfold out0_5
  rw [View.canon_unit_zero offsets_zero]
  simp only [View.ld_unit_zero (S := S5000x128) offsets_zero, View.ld_unit_zero (S := S128x128) offsets_zero,
    View.ld_unit_zero (S := S1x128) offsets_zero]
  funext j
  obtain ⟨p, q, rfl⟩ : ∃ (p : Fin 5000) (q : Fin 128), j = ix2 p q := ⟨j 0, j 1, eq_ix2 j⟩
  exact dense_of_blocks (V c main_v21) (V c main_arg0) (V c main_arg2) (V c main_arg4) (V c main_v22)
    (iblk0 V c 0 t) (iblk0 V c 1 t) (iblk0 V c 2 t) (iblk0 V c 4 t) (iblk0 V c 3 t)
    (((cfg0.win 5).blk t).view.emb (ix2 p q)) p q
    (agg_row V c t p q) (x_row V c t p q) (wagg_col V c t p q) (wroot_col V c t p q) (bias_entry V c t p q)

/-- An index of the array is under point `t`'s block exactly when each coordinate is in the block's range on its axis. -/
theorem mem_block (t : Fin cfg0.N) (i : SNode.Idx) :
    i ∈ ((cfg0.win 5).blk t).view.set
      ↔ ∀ a : Fin 2, win0_5.index t a * S5000x128.size a ≤ (i a).val
          ∧ (i a).val < win0_5.index t a * S5000x128.size a + S5000x128.size a := by
  show i ∈ ((View.whole main_v23).slice (win0_5.rect t)).set ↔ _
  rw [View.set_slice_whole, Rect.mem_set_unit]
  exact Iff.rfl

/-- The ten row blocks tile the 50000 rows: row `r` is under the block of point `r / 5000`. -/
theorem rows_covered (i : SNode.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have ht : (i 0).val / 5000 < grid0.N := by rw [hN]; omega
  refine ⟨⟨(i 0).val / 5000, ht⟩, flush0_5 _, ?_⟩
  obtain ⟨-, -, -, -, -, -, -, -, -, -, e50, e51⟩ := block_indices ⟨(i 0).val / 5000, ht⟩
  have e50' : win0_5.index ⟨(i 0).val / 5000, ht⟩ (0 : Fin 2) = (i 0).val / 5000 := e50
  rw [mem_block]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50']; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e51]; omega

/-- What the region leaves in its output array: the clipped dense layer of the five arrays it was entered with. -/
theorem final (c : Dev nD) :
    (dat0 (F := Ideal) V c).arrAt 5 cfg0.N
      = denseRelu (V c main_v21) (V c main_arg0) (V c main_arg2) (V c main_v22) (V c main_arg4) := by
  exact (dat0 (F := Ideal) V c).arrAt_eq_of_cover 5
    (denseRelu (V c main_v21) (V c main_arg0) (V c main_arg2) (V c main_v22) (V c main_arg4))
    (fun t _ => flushed_eq V c t) rows_covered

end Cert.KernelIdeal.Dense0

end
-- ==== Proof.Dense1Value.lean ====
/-
  The second dense layer's kernel, read as a value: the same ten row blocks, the same two products and bias row, and no
  clipping. The array the region leaves is `denseLin` of the arrays it found.
-/
import proofs.«128906_j55078660604120_1_alg».proof.Proof.Gen.KernelIdeal.Frame
import proofs.«128906_j55078660604120_1_alg».proof.Proof.EdgeGcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense1

open Idealize.ShloMosaic Idealize.ShloMosaic.TcCoe Idealize.SL.Sem Idealize.ShloMosaic.ValueIdx
open Cert.KernelIdeal Cert.KernelIdeal.Gen Cert.EdgeGcn
open Idealize.ShloMosaic.Pipeline (Dat)

variable (V : (c : Dev nD) → (b : Ref sig .tc) → Buf (Elt Ideal) ((c : Thread nD τ).loc b))

/-- The zero offsets of a whole-buffer access, as the constant function. -/
theorem offsets_zero : (![0, 0] : Fin 2 → Nat) = fun _ => 0 := funext fun a => by fin_cases a <;> rfl

/-! ## The block product at an index

The kernel's product contracts the second axis of a 5000 × 128 block with the first axis of a 128 × 128 weight. The four
coordinate facts below say which entry of each operand the contraction index `q` meets at output index `i`. -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block times a weight, accumulated into zeros, at row `p` and column `q`: the sum over the 128 channels. -/
theorem block_product_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The payload at an index

Rounding to the narrower format is the identity on extended reals, and so is a cast to the same shape; what is left at row
`p` and column `q` of a block is the two channel sums and the bias entry of the column. -/

/-- What the body stores, at row `p` and column `q` of the block, from the blocks it loaded. -/
theorem payload_apply (agg x : Vec Ideal S5000x128 .f32) (wagg wroot : Vec Ideal S128x128 .f32) (b : Vec Ideal S1x128 .f32)
    (p : Fin 5000) (q : Fin 128) :
    (k1_pay1 (F := Ideal) agg x wagg wroot b) (ix2 p q)
      = (∑ k : Fin 128, agg (ix2 p k) * wagg (ix2 k q)) + (∑ k : Fin 128, x (ix2 p k) * wroot (ix2 k q))
          + b (ix2 (0 : Fin 1) q) := by
  unfold k1_pay1
  rw [addf_apply, addf_apply, block_product_apply, block_product_apply, broadcastTo_1b_ab_apply,
    shapeCast_self, shapeCast_self, shapeCast_self]
  rfl

/-! ## From blocks to the array -/

/-- The payload at block entry `(p, q)`, when the five blocks are restrictions of five arrays to the row of `i`, the
    column of `i` and the bias entry of `i`'s column: the dense layer at `i`. -/
theorem dense_of_blocks (A X : SNode.Idx → EReal) (Wa Wr : SSq.Idx → EReal) (B : SRow.Idx → EReal)
    (agg x : Vec Ideal S5000x128 .f32) (wagg wroot : Vec Ideal S128x128 .f32) (b : Vec Ideal S1x128 .f32)
    (i : SNode.Idx) (p : Fin 5000) (q : Fin 128)
    (hagg : ∀ k : Fin 128, agg (ix2 p k) = A (nodeRowAt i k))
    (hx : ∀ k : Fin 128, x (ix2 p k) = X (nodeRowAt i k))
    (hwagg : ∀ k : Fin 128, wagg (ix2 k q) = Wa (sqColAt i k))
    (hwroot : ∀ k : Fin 128, wroot (ix2 k q) = Wr (sqColAt i k))
    (hb : b (ix2 (0 : Fin 1) q) = B (rowAt i)) :
    k1_pay1 (F := Ideal) agg x wagg wroot b (ix2 p q) = denseLin A X Wa B Wr i := by
  rw [payload_apply]
  unfold denseLin
  simp only [hagg, hx, hwagg, hwroot, hb]

/-- The windows' index maps over the ten points: the two feature windows move with the output window down the rows, the
    weights and the bias stay at block (0, 0), and the output's row block at point `t` is block `t`. -/
theorem block_indices : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregated-features block at point `t` is the array's row under the output block's row `p`. -/
theorem agg_row (c : Dev nD) (t : Fin cfg1.N) (p : Fin 5000) (q k : Fin 128) :
    (iblk1 V c 0 t : Vec Ideal S5000x128 .f32) (ix2 p k)
      = V c main_v41 (nodeRowAt (((cfg1.win 5).blk t).view.emb (ix2 p q)) k) := by
  obtain ⟨e00, e01, -⟩ := block_indices t
  show V c main_v41 (((cfg1.win 0).blk t).view.emb (ix2 p k)) = _
  refine congrArg (V c main_v41) (funext fun a => Fin.ext ?_)
  match a with
  | ⟨0, _⟩ => show win1_0.index t (0 : Fin 2) * 5000 + 1 * p.val = win1_5.index t (0 : Fin 2) * 5000 + 1 * p.val; rw [e00]
  | ⟨1, _⟩ => show win1_0.index t (1 : Fin 2) * 128 + 1 * k.val = k.val; rw [e01]; omega

/-- Row `p` of the hidden-features block at point `t` likewise. -/
theorem x_row (c : Dev nD) (t : Fin cfg1.N) (p : Fin 5000) (q k : Fin 128) :
    (iblk1 V c 1 t : Vec Ideal S5000x128 .f32) (ix2 p k)
      = V c main_v23 (nodeRowAt (((cfg1.win 5).blk t).view.emb (ix2 p q)) k) := by
  obtain ⟨-, -, e10, e11, -⟩ := block_indices t
  show V c main_v23 (((cfg1.win 1).blk t).view.emb (ix2 p k)) = _
  refine congrArg (V c main_v23) (funext fun a => Fin.ext ?_)
  match a with
  | ⟨0, _⟩ => show win1_1.index t (0 : Fin 2) * 5000 + 1 * p.val = win1_5.index t (0 : Fin 2) * 5000 + 1 * p.val; rw [e10]
  | ⟨1, _⟩ => show win1_1.index t (1 : Fin 2) * 128 + 1 * k.val = k.val; rw [e11]; omega

/-- Column `q` of the resident neighbour weight is the array's column under the output block's column `q`. -/
theorem wagg_col (c : Dev nD) (t : Fin cfg1.N) (p : Fin 5000) (q k : Fin 128) :
    (iblk1 V c 2 t : Vec Ideal S128x128 .f32) (ix2 k q)
      = V c main_arg5 (sqColAt (((cfg1.win 5).blk t).view.emb (ix2 p q)) k) := by
  obtain ⟨-, -, -, -, e20, e21, -, -, -, -, -, e51⟩ := block_indices t
  show V c main_arg5 (((cfg1.win 2).blk t).view.emb (ix2 k q)) = _
  refine congrArg (V c main_arg5) (funext fun a => Fin.ext ?_)
  match a with
  | ⟨0, _⟩ => show win1_2.index t (0 : Fin 2) * 128 + 1 * k.val = k.val; rw [e20]; omega
  | ⟨1, _⟩ => show win1_2.index t (1 : Fin 2) * 128 + 1 * q.val = win1_5.index t (1 : Fin 2) * 128 + 1 * q.val; rw [e21, e51]

/-- Column `q` of the resident root weight likewise. -/
theorem wroot_col (c : Dev nD) (t : Fin cfg1.N) (p : Fin 5000) (q k : Fin 128) :
    (iblk1 V c 4 t : Vec Ideal S128x128 .f32) (ix2 k q)
      = V c main_arg7 (sqColAt (((cfg1.win 5).blk t).view.emb (ix2 p q)) k) := by
  obtain ⟨-, -, -, -, -, -, -, -, e40, e41, -, e51⟩ := block_indices t
  show V c main_arg7 (((cfg1.win 4).blk t).view.emb (ix2 k q)) = _
  refine congrArg (V c main_arg7) (funext fun a => Fin.ext ?_)
  match a with
  | ⟨0, _⟩ => show win1_4.index t (0 : Fin 2) * 128 + 1 * k.val = k.val; rw [e40]; omega
  | ⟨1, _⟩ => show win1_4.index t (1 : Fin 2) * 128 + 1 * q.val = win1_5.index t (1 : Fin 2) * 128 + 1 * q.val; rw [e41, e51]

/-- Entry `q` of the resident bias row is the array's entry under the output block's column `q`. -/
theorem bias_entry (c : Dev nD) (t : Fin cfg1.N) (p : Fin 5000) (q : Fin 128) :
    (iblk1 V c 3 t : Vec Ideal S1x128 .f32) (ix2 (0 : Fin 1) q)
      = V c main_v42 (rowAt (((cfg1.win 5).blk t).view.emb (ix2 p q))) := by
  obtain ⟨-, -, -, -, -, -, e30, e31, -, -, -, e51⟩ := block_indices t
  show V c main_v42 (((cfg1.win 3).blk t).view.emb (ix2 (0 : Fin 1) q)) = _
  refine congrArg (V c main_v42) (funext fun a => Fin.ext ?_)
  match a with
  | ⟨0, _⟩ => show win1_3.index t (0 : Fin 2) * 1 + 1 * 0 = 0; rw [e30]
  | ⟨1, _⟩ => show win1_3.index t (1 : Fin 2) * 128 + 1 * q.val = win1_5.index t (1 : Fin 2) * 128 + 1 * q.val; rw [e31, e51]

/-- What point `t` writes back is block `t` of the dense layer of the five arrays. -/
theorem flushed_eq (c : Dev nD) (t : Fin cfg1.N) :
    (dat1 (F := Ideal) V c).flushed 5 t
      = ((cfg1.win 5).blk t).view.read (Elt Ideal)
          (denseLin (V c main_v41) (V c main_v23) (V c main_arg5) (V c main_v42) (V c main_arg7)) := by
  show (cfg1.win 5).cut (grid1.coords t) ((dat1 V c).after 5 t) = _
  rw [after1_5]
  unfold out1_5
  rw [View.canon_unit_zero offsets_zero]
  simp only [View.ld_unit_zero (S := S5000x128) offsets_zero, View.ld_unit_zero (S := S128x128) offsets_zero,
    View.ld_unit_zero (S := S1x128) offsets_zero]
  funext j
  obtain ⟨p, q, rfl⟩ : ∃ (p : Fin 5000) (q : Fin 128), j = ix2 p q := ⟨j 0, j 1, eq_ix2 j⟩
  exact dense_of_blocks (V c main_v41) (V c main_v23) (V c main_arg5) (V c main_arg7) (V c main_v42)
    (iblk1 V c 0 t) (iblk1 V c 1 t) (iblk1 V c 2 t) (iblk1 V c 4 t) (iblk1 V c 3 t)
    (((cfg1.win 5).blk t).view.emb (ix2 p q)) p q
    (agg_row V c t p q) (x_row V c t p q) (wagg_col V c t p q) (wroot_col V c t p q) (bias_entry V c t p q)

/-- An index of the array is under point `t`'s block exactly when each coordinate is in the block's range on its axis. -/
theorem mem_block (t : Fin cfg1.N) (i : SNode.Idx) :
    i ∈ ((cfg1.win 5).blk t).view.set
      ↔ ∀ a : Fin 2, win1_5.index t a * S5000x128.size a ≤ (i a).val
          ∧ (i a).val < win1_5.index t a * S5000x128.size a + S5000x128.size a := by
  show i ∈ ((View.whole main_v43).slice (win1_5.rect t)).set ↔ _
  rw [View.set_slice_whole, Rect.mem_set_unit]
  exact Iff.rfl

/-- The ten row blocks tile the 50000 rows: row `r` is under the block of point `r / 5000`. -/
theorem rows_covered (i : SNode.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  have ht : (i 0).val / 5000 < grid1.N := by rw [hN]; omega
  refine ⟨⟨(i 0).val / 5000, ht⟩, flush1_5 _, ?_⟩
  obtain ⟨-, -, -, -, -, -, -, -, -, -, e50, e51⟩ := block_indices ⟨(i 0).val / 5000, ht⟩
  have e50' : win1_5.index ⟨(i 0).val / 5000, ht⟩ (0 : Fin 2) = (i 0).val / 5000 := e50
  rw [mem_block]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50']; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e51]; omega

/-- What the region leaves in its output array: the dense layer of the five arrays it was entered with. -/
theorem final (c : Dev nD) :
    (dat1 (F := Ideal) V c).arrAt 5 cfg1.N
      = denseLin (V c main_v41) (V c main_v23) (V c main_arg5) (V c main_v42) (V c main_arg7) := by
  exact (dat1 (F := Ideal) V c).arrAt_eq_of_cover 5
    (denseLin (V c main_v41) (V c main_v23) (V c main_arg5) (V c main_v42) (V c main_arg7))
    (fun t _ => flushed_eq V c t) rows_covered

end Cert.KernelIdeal.Dense1

end
-- ==== Proof.HeadValue.lean ====
/-
  The edge head's kernel, read as a value: over a grid of a hundred blocks of 8000 edges, each point forms the hidden rows of
  its edges from the two endpoint embeddings and the edge attributes (three products against the three resident blocks of
  the first weight, the bias row, clipped below at zero), multiplies by the second weight's row, sums along the 128 hidden
  units and adds the last bias. Edge `e`'s logit depends on row `e` of the three inputs only and the blocks tile the 800000
  edges, so the array the region leaves is `edgeLogit` of the arrays it found.
-/
import proofs.«128906_j55078660604120_1_alg».proof.Proof.Gen.KernelIdeal.Frame
import proofs.«128906_j55078660604120_1_alg».proof.Proof.EdgeGcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Head

open Idealize.ShloMosaic Idealize.ShloMosaic.TcCoe Idealize.SL.Sem Idealize.ShloMosaic.ValueIdx
open Cert.KernelIdeal Cert.KernelIdeal.Gen Cert.EdgeGcn
open Idealize.ShloMosaic.Pipeline (Dat)

/-- The two zero offsets, however they are spelt. -/
theorem hz : (![0, 0] : Fin 2 → Nat) = fun _ => 0 := funext fun a => by fin_cases a <;> rfl

/-- A column kept as a second unit axis: `[a]` cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The one entry of a `[1, 1]` array spread over a column. -/
theorem broadcastTo_11_a1_apply {α : Type} {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The sum along the 128 lanes of row `p`. -/
theorem laneSum_apply (src : FVec Ideal S8000x128 .f32) (h : S8000x128.Reduces [1] S8000) (hφ : FKind.Formats .f32)
    (hacc : (0x00000000#32 : BitVec 32) = FKind.add.neutral .f32 hφ) (p : Fin 8000) :
    multiReduction (F := Ideal) .add [1] S8000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-! ## The three block products

Each product contracts axis 1 of its left operand with axis 0 of its right one. The four lemmas before each read the two
operand indices at output entry `i` and contraction index `q`, axis by axis. -/

theorem lhs_emb_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_emb_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs_emb_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_emb_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- A block of endpoint embeddings against its block of the first weight, into the zero splat: entry `(p, c)` is the sum over the
    128 contracted channels of the products. -/
theorem matmul_emb_apply (x : FVec Ideal S8000x128 .bf16) (w : FVec Ideal S128x128 .bf16) (p : Fin 8000) (c : Fin 128) :
    matmul dot_S8000x128_S128x128_S8000x128_1_0_0_1_n_n none x w (constant (F := Ideal) S8000x128 .f32 0x00000000#32) (ix2 p c)
      = ∑ k : Fin 128, x (ix2 p k) * w (ix2 k c) := by
  simp only [matmul]
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p c) ((ValueIdx.contrEquiv1 dot_S8000x128_S128x128_S8000x128_1_0_0_1_n_n 128 rfl rfl).symm k) = ix2 p k := funext fun a => Fin.ext (by
    match a with
    | ⟨0, _⟩ => exact lhs_emb_0 _ _
    | ⟨1, _⟩ => exact (lhs_emb_1 _ _).trans hk)
  have er : dot_S8000x128_S128x128_S8000x128_1_0_0_1_n_n.rhsIdx (ix2 p c) ((ValueIdx.contrEquiv1 dot_S8000x128_S128x128_S8000x128_1_0_0_1_n_n 128 rfl rfl).symm k) = ix2 k c := funext fun a => Fin.ext (by
    match a with
    | ⟨0, _⟩ => exact (rhs_emb_0 _ _).trans hk
    | ⟨1, _⟩ => exact rhs_emb_1 _ _)
  rw [el, er]

theorem lhs_attr_0 (i : S8000x128.Idx) (q : dot_S8000x32_S32x128_S8000x128_1_0_0_1_n_n.contr.Idx) :
    (dot_S8000x32_S32x128_S8000x128_1_0_0_1_n_n.lhsIdx i q 0).val = (i 0).val := by
  unfold DotDims.lhsIdx
  rw [dif_neg (show ¬(0 : Fin S8000x32.rank) ∈ dot_S8000x32_S32x128_S8000x128_1_0_0_1_n_n.lhsBatch by decide), dif_pos (show (0 : Fin S8000x32.rank) ∈ dot_S8000x32_S32x128_S8000x128_1_0_0_1_n_n.lhsNonContracting by decide)]
  rfl
theorem lhs_attr_1 (i : S8000x128.Idx) (q : dot_S8000x32_S32x128_S8000x128_1_0_0_1_n_n.contr.Idx) :
    (dot_S8000x32_S32x128_S8000x128_1_0_0_1_n_n.lhsIdx i q 1).val = (q ⟨0, by decide⟩).val :=
  dot_S8000x32_S32x128_S8000x128_1_0_0_1_n_n.lhsIdx_val_of_single rfl i q
theorem rhs_attr_0 (i : S8000x128.Idx) (q : dot_S8000x32_S32x128_S8000x128_1_0_0_1_n_n.contr.Idx) :
    (dot_S8000x32_S32x128_S8000x128_1_0_0_1_n_n.rhsIdx i q 0).val = (q ⟨0, by decide⟩).val :=
  dot_S8000x32_S32x128_S8000x128_1_0_0_1_n_n.rhsIdx_val_of_single rfl i q
theorem rhs_attr_1 (i : S8000x128.Idx) (q : dot_S8000x32_S32x128_S8000x128_1_0_0_1_n_n.contr.Idx) :
    (dot_S8000x32_S32x128_S8000x128_1_0_0_1_n_n.rhsIdx i q 1).val = (i 1).val := by
  unfold DotDims.rhsIdx
  rw [dif_neg (show ¬(1 : Fin S32x128.rank) ∈ dot_S8000x32_S32x128_S8000x128_1_0_0_1_n_n.rhsBatch by decide), dif_pos (show (1 : Fin S32x128.rank) ∈ dot_S8000x32_S32x128_S8000x128_1_0_0_1_n_n.rhsNonContracting by decide)]
  rfl

/-- A block of edge attributes against its block of the first weight, into the zero splat: entry `(p, c)` is the sum over the
    32 contracted features of the products. -/
theorem matmul_attr_apply (x : FVec Ideal S8000x32 .bf16) (w : FVec Ideal S32x128 .bf16) (p : Fin 8000) (c : Fin 128) :
    matmul dot_S8000x32_S32x128_S8000x128_1_0_0_1_n_n none x w (constant (F := Ideal) S8000x128 .f32 0x00000000#32) (ix2 p c)
      = ∑ k : Fin 32, x (ix2 p k) * w (ix2 k c) := by
  simp only [matmul]
  rw [Ideal.matmul_constant_zero_apply, ← Equiv.sum_comp (ValueIdx.contrEquiv1 dot_S8000x32_S32x128_S8000x128_1_0_0_1_n_n 32 rfl rfl).symm]
  refine Finset.sum_congr rfl fun k _ => ?_
  have hk := ValueIdx.contrEquiv1_symm_val dot_S8000x32_S32x128_S8000x128_1_0_0_1_n_n 32 rfl rfl k
  have el : dot_S8000x32_S32x128_S8000x128_1_0_0_1_n_n.lhsIdx (ix2 p c) ((ValueIdx.contrEquiv1 dot_S8000x32_S32x128_S8000x128_1_0_0_1_n_n 32 rfl rfl).symm k) = ix2 p k := funext fun a => Fin.ext (by
    match a with
    | ⟨0, _⟩ => exact lhs_attr_0 _ _
    | ⟨1, _⟩ => exact (lhs_attr_1 _ _).trans hk)
  have er : dot_S8000x32_S32x128_S8000x128_1_0_0_1_n_n.rhsIdx (ix2 p c) ((ValueIdx.contrEquiv1 dot_S8000x32_S32x128_S8000x128_1_0_0_1_n_n 32 rfl rfl).symm k) = ix2 k c := funext fun a => Fin.ext (by
    match a with
    | ⟨0, _⟩ => exact (rhs_attr_0 _ _).trans hk
    | ⟨1, _⟩ => exact rhs_attr_1 _ _)
  rw [el, er]

/-! ## What a point computes, row by row -/

/-- Row `p` of what a point computes from its blocks: the hidden row of the edge (three products, the bias, clipped below at
    zero) against the second weight's row, summed over the 128 hidden units. -/
theorem pay2_apply (x0 x1 : Vec Ideal S8000x128 .f32) (x2 : Vec Ideal S8000x32 .f32) (w0 w1 : Vec Ideal S128x128 .f32)
    (w2 : Vec Ideal S32x128 .f32) (b1 w : Vec Ideal S1x128 .f32) (p : Fin 8000) :
    k2_pay2 (F := Ideal) x0 x1 x2 w0 w1 w2 b1 w (ix2 p (0 : Fin 1))
      = ∑ c : Fin 128,
          max ((∑ k : Fin 128, x0 (ix2 p k) * w0 (ix2 k c)) + (∑ k : Fin 128, x1 (ix2 p k) * w1 (ix2 k c))
              + (∑ k : Fin 32, x2 (ix2 p k) * w2 (ix2 k c)) + b1 (ix2 (0 : Fin 1) c))
            (Ideal.ofBits .f32 0x00000000#32) * w (ix2 (0 : Fin 1) c) := by
  unfold k2_pay2
  refine (shapeCast_a_a1_apply _ _ p 0).trans ?_
  refine (laneSum_apply _ _ _ _ p).trans ?_
  refine Finset.sum_congr rfl fun c _ => ?_
  simp only [shapeCast_self]
  rw [mulf_apply, maximumf_apply, addf_apply, addf_apply, addf_apply, broadcast_apply,
    matmul_emb_apply, matmul_emb_apply, matmul_attr_apply, broadcastTo_1b_ab_apply, broadcastTo_1b_ab_apply]
  rfl

/-- The last bias spread over the column and added. -/
theorem pay1_apply (s : FVec Ideal S8000x1 .f32) (b2 : Vec Ideal S1x1 .f32) (p : Fin 8000) :
    k2_pay1 (F := Ideal) s (k2_pay3 (F := Ideal) b2) (ix2 p (0 : Fin 1)) = s (ix2 p (0 : Fin 1)) + b2 (ix2 (0 : Fin 1) (0 : Fin 1)) := by
  unfold k2_pay1 k2_pay3
  rw [addf_apply, broadcastTo_11_a1_apply, shapeCast_self]

/-! ## A point's row against the whole arrays -/

/-- Row `p` of a point's result is the logit of the edge `i` whose rows of the three per-edge inputs the point's blocks hold
    at `p`, the six small operands being the whole arrays. -/
theorem point_logit (x0 x1 : Vec Ideal S8000x128 .f32) (x2 : Vec Ideal S8000x32 .f32) (w0 w1 : Vec Ideal S128x128 .f32)
    (w2 : Vec Ideal S32x128 .f32) (b1 w : Vec Ideal S1x128 .f32) (b2 : Vec Ideal S1x1 .f32)
    (hs hd : SEdge.Idx → EReal) (ea : SAttr.Idx → EReal) (ws wd : SSq.Idx → EReal) (we : SWAttr.Idx → EReal)
    (bb1 ww : SRow.Idx → EReal) (bb2 : SOne.Idx → EReal) (p : Fin 8000) (i : SOut.Idx)
    (h0 : ∀ k : Fin 128, x0 (ix2 p k) = hs (edgeAt ⟨(i 0).val, (i 0).isLt⟩ k))
    (h1 : ∀ k : Fin 128, x1 (ix2 p k) = hd (edgeAt ⟨(i 0).val, (i 0).isLt⟩ k))
    (h2 : ∀ k : Fin 32, x2 (ix2 p k) = ea (attrAt ⟨(i 0).val, (i 0).isLt⟩ k))
    (h3 : ∀ k c : Fin 128, w0 (ix2 k c) = ws (sqAt k c)) (h4 : ∀ k c : Fin 128, w1 (ix2 k c) = wd (sqAt k c))
    (h5 : ∀ (k : Fin 32) (c : Fin 128), w2 (ix2 k c) = we (wattrAt k c))
    (h6 : ∀ c : Fin 128, b1 (ix2 (0 : Fin 1) c) = bb1 (biasAt c)) (h7 : ∀ c : Fin 128, w (ix2 (0 : Fin 1) c) = ww (biasAt c))
    (h8 : b2 (ix2 (0 : Fin 1) (0 : Fin 1)) = bb2 oneAt) :
    k2_pay1 (F := Ideal) (k2_pay2 x0 x1 x2 w0 w1 w2 b1 w) (k2_pay3 b2) (ix2 p (0 : Fin 1))
      = edgeLogit hs hd ea ws wd we bb1 ww bb2 i := by
  rw [pay1_apply, pay2_apply]
  unfold edgeLogit edgeHidden
  simp only [h0, h1, h2, h3, h4, h5, h6, h7, h8]

/-! ## The blocks a point holds -/

/-- The block index of every operand at every point of the grid: the three per-edge inputs and the result move with the point
    along the rows, the six small operands stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- The grid has a hundred points. -/
theorem N_eq : cfg2.N = 100 := by decide +kernel

variable (V : (c : Dev nD) → (b : Ref sig .tc) → Buf (Elt Ideal) ((c : Thread nD τ).loc b))

/-- Row `p` of the source-endpoint block at point `t` is row `8000 t + p` of the array. -/
theorem hs_block (c : Dev nD) (t : Fin cfg2.N) (p : Fin 8000) (k : Fin 128) (e : Fin 800000)
    (he : e.val = t.val * 8000 + p.val) :
    iblk2 V c 0 t (ix2 p k) = V c main_v50 (edgeAt e k) := by
  obtain ⟨e0, e1, -⟩ := idx_facts t
  unfold iblk2
  rw [View.read_apply]
  show V c main_v50 _ = V c main_v50 _
  refine congrArg _ ?_
  funext a; apply Fin.ext
  match a with
  | ⟨0, _⟩ => show win2_0.index t (0 : Fin 2) * 8000 + 1 * p.val = e.val; omega
  | ⟨1, _⟩ => show win2_0.index t (1 : Fin 2) * 128 + 1 * k.val = k.val; omega

/-- Row `p` of the target-endpoint block at point `t` is row `8000 t + p` of the array. -/
theorem hd_block (c : Dev nD) (t : Fin cfg2.N) (p : Fin 8000) (k : Fin 128) (e : Fin 800000)
    (he : e.val = t.val * 8000 + p.val) :
    iblk2 V c 1 t (ix2 p k) = V c main_v57 (edgeAt e k) := by
  obtain ⟨-, -, e0, e1, -⟩ := idx_facts t
  unfold iblk2
  rw [View.read_apply]
  show V c main_v57 _ = V c main_v57 _
  refine congrArg _ ?_
  funext a; apply Fin.ext
  match a with
  | ⟨0, _⟩ => show win2_1.index t (0 : Fin 2) * 8000 + 1 * p.val = e.val; omega
  | ⟨1, _⟩ => show win2_1.index t (1 : Fin 2) * 128 + 1 * k.val = k.val; omega

/-- Row `p` of the attribute block at point `t` is row `8000 t + p` of the array. -/
theorem ea_block (c : Dev nD) (t : Fin cfg2.N) (p : Fin 8000) (k : Fin 32) (e : Fin 800000)
    (he : e.val = t.val * 8000 + p.val) :
    iblk2 V c 2 t (ix2 p k) = V c main_arg1 (attrAt e k) := by
  obtain ⟨-, -, -, -, e0, e1, -⟩ := idx_facts t
  unfold iblk2
  rw [View.read_apply]
  show V c main_arg1 _ = V c main_arg1 _
  refine congrArg _ ?_
  funext a; apply Fin.ext
  match a with
  | ⟨0, _⟩ => show win2_2.index t (0 : Fin 2) * 8000 + 1 * p.val = e.val; omega
  | ⟨1, _⟩ => show win2_2.index t (1 : Fin 2) * 32 + 1 * k.val = k.val; omega

/-- The one block of the first weight's source rows is the whole array, at every point. -/
theorem ws_block (c : Dev nD) (t : Fin cfg2.N) (k q : Fin 128) :
    iblk2 V c 3 t (ix2 k q) = V c main_v58 (sqAt k q) := by
  obtain ⟨-, -, -, -, -, -, e0, e1, -⟩ := idx_facts t
  unfold iblk2
  rw [View.read_apply]
  show V c main_v58 _ = V c main_v58 _
  refine congrArg _ ?_
  funext a; apply Fin.ext
  match a with
  | ⟨0, _⟩ => show win2_3.index t (0 : Fin 2) * 128 + 1 * k.val = k.val; omega
  | ⟨1, _⟩ => show win2_3.index t (1 : Fin 2) * 128 + 1 * q.val = q.val; omega

/-- The one block of the first weight's target rows is the whole array. -/
theorem wd_block (c : Dev nD) (t : Fin cfg2.N) (k q : Fin 128) :
    iblk2 V c 4 t (ix2 k q) = V c main_v59 (sqAt k q) := by
  obtain ⟨-, -, -, -, -, -, -, -, e0, e1, -⟩ := idx_facts t
  unfold iblk2
  rw [View.read_apply]
  show V c main_v59 _ = V c main_v59 _
  refine congrArg _ ?_
  funext a; apply Fin.ext
  match a with
  | ⟨0, _⟩ => show win2_4.index t (0 : Fin 2) * 128 + 1 * k.val = k.val; omega
  | ⟨1, _⟩ => show win2_4.index t (1 : Fin 2) * 128 + 1 * q.val = q.val; omega

/-- The one block of the first weight's attribute rows is the whole array. -/
theorem we_block (c : Dev nD) (t : Fin cfg2.N) (k : Fin 32) (q : Fin 128) :
    iblk2 V c 5 t (ix2 k q) = V c main_v60 (wattrAt k q) := by
  obtain ⟨-, -, -, -, -, -, -, -, -, -, e0, e1, -⟩ := idx_facts t
  unfold iblk2
  rw [View.read_apply]
  show V c main_v60 _ = V c main_v60 _
  refine congrArg _ ?_
  funext a; apply Fin.ext
  match a with
  | ⟨0, _⟩ => show win2_5.index t (0 : Fin 2) * 32 + 1 * k.val = k.val; omega
  | ⟨1, _⟩ => show win2_5.index t (1 : Fin 2) * 128 + 1 * q.val = q.val; omega

/-- The one block of the first bias is the whole row. -/
theorem b1_block (c : Dev nD) (t : Fin cfg2.N) (q : Fin 128) :
    iblk2 V c 6 t (ix2 (0 : Fin 1) q) = V c main_v62 (biasAt q) := by
  obtain ⟨-, -, -, -, -, -, -, -, -, -, -, -, e0, e1, -⟩ := idx_facts t
  unfold iblk2
  rw [View.read_apply]
  show V c main_v62 _ = V c main_v62 _
  refine congrArg _ ?_
  funext a; apply Fin.ext
  match a with
  | ⟨0, _⟩ => show win2_6.index t (0 : Fin 2) * 1 + 1 * 0 = 0; omega
  | ⟨1, _⟩ => show win2_6.index t (1 : Fin 2) * 128 + 1 * q.val = q.val; omega

/-- The one block of the second weight is the whole row. -/
theorem w2_block (c : Dev nD) (t : Fin cfg2.N) (q : Fin 128) :
    iblk2 V c 7 t (ix2 (0 : Fin 1) q) = V c main_v61 (biasAt q) := by
  obtain ⟨-, -, -, -, -, -, -, -, -, -, -, -, -, -, e0, e1, -⟩ := idx_facts t
  unfold iblk2
  rw [View.read_apply]
  show V c main_v61 _ = V c main_v61 _
  refine congrArg _ ?_
  funext a; apply Fin.ext
  match a with
  | ⟨0, _⟩ => show win2_7.index t (0 : Fin 2) * 1 + 1 * 0 = 0; omega
  | ⟨1, _⟩ => show win2_7.index t (1 : Fin 2) * 128 + 1 * q.val = q.val; omega

/-- The one block of the last bias is its one entry. -/
theorem b2_block (c : Dev nD) (t : Fin cfg2.N) :
    iblk2 V c 8 t (ix2 (0 : Fin 1) (0 : Fin 1)) = V c main_v63 oneAt := by
  obtain ⟨-, -, -, -, -, -, -, -, -, -, -, -, -, -, -, -, e0, e1, -⟩ := idx_facts t
  unfold iblk2
  rw [View.read_apply]
  show V c main_v63 _ = V c main_v63 _
  refine congrArg _ ?_
  funext a; apply Fin.ext
  match a with
  | ⟨0, _⟩ => show win2_8.index t (0 : Fin 2) * 1 + 1 * 0 = 0; omega
  | ⟨1, _⟩ => show win2_8.index t (1 : Fin 2) * 1 + 1 * 0 = 0; omega

/-! ## What a point writes back, and the array the region leaves -/

/-- What point `t` writes back is block `t` of the edge logits of the arrays the region found. -/
theorem flushed_eq (c : Dev nD) (t : Fin cfg2.N) :
    (dat2 (F := Ideal) V c).flushed 9 t = ((cfg2.win 9).blk t).view.read (Elt Ideal)
      (edgeLogit (V c main_v50) (V c main_v57) (V c main_arg1) (V c main_v58) (V c main_v59) (V c main_v60)
          (V c main_v62) (V c main_v61) (V c main_v63)) := by
  show (cfg2.win 9).cut (grid2.coords t) ((dat2 V c).after 9 t) = _
  rw [after2_9]
  unfold out2_9
  rw [View.canon_unit_zero hz]
  simp only [View.ld_unit_zero (S := S8000x128) hz, View.ld_unit_zero (S := S8000x32) hz, View.ld_unit_zero (S := S128x128) hz,
    View.ld_unit_zero (S := S32x128) hz, View.ld_unit_zero (S := S1x128) hz, View.ld_unit_zero (S := S1x1) hz]
  funext j
  obtain ⟨p, u, rfl⟩ : ∃ (p : Fin 8000) (u : Fin 1), j = ix2 p u := ⟨j 0, j 1, eq_ix2 j⟩
  obtain rfl : u = 0 := Subsingleton.elim u 0
  obtain ⟨-, -, -, -, -, -, -, -, -, -, -, -, -, -, -, -, -, -, e0, e1⟩ := idx_facts t
  have hrow : ((((cfg2.win 9).blk t).view.emb (ix2 p (0 : Fin 1))) 0).val = t.val * 8000 + p.val := by
    show win2_9.index t (0 : Fin 2) * 8000 + 1 * p.val = _
    omega
  rw [View.read_apply]
  have hx : (win2 9).xinj (grid2.coords t) (ix2 p (0 : Fin 1)) = ix2 p (0 : Fin 1) := by
    funext a
    match a with
    | ⟨0, _⟩ => rfl
    | ⟨1, _⟩ => rfl
  show k2_pay1 (F := Ideal) (k2_pay2 (iblk2 V c 0 t) (iblk2 V c 1 t) (iblk2 V c 2 t) (iblk2 V c 3 t) (iblk2 V c 4 t) (iblk2 V c 5 t)
      (iblk2 V c 6 t) (iblk2 V c 7 t)) (k2_pay3 (iblk2 V c 8 t)) ((win2 9).xinj (grid2.coords t) (ix2 p (0 : Fin 1))) = _
  rw [hx]
  exact point_logit (iblk2 V c 0 t) (iblk2 V c 1 t) (iblk2 V c 2 t) (iblk2 V c 3 t) (iblk2 V c 4 t) (iblk2 V c 5 t)
    (iblk2 V c 6 t) (iblk2 V c 7 t) (iblk2 V c 8 t) (V c main_v50) (V c main_v57) (V c main_arg1) (V c main_v58) (V c main_v59)
    (V c main_v60) (V c main_v62) (V c main_v61) (V c main_v63) p (((cfg2.win 9).blk t).view.emb (ix2 p (0 : Fin 1)))
    (fun k => hs_block V c t p k _ hrow) (fun k => hd_block V c t p k _ hrow) (fun k => ea_block V c t p k _ hrow)
    (ws_block V c t) (wd_block V c t) (we_block V c t) (b1_block V c t) (w2_block V c t) (b2_block V c t)

/-- An edge is in point `t`'s block of the result iff each coordinate is in the block's range on its axis. -/
theorem mem_blk (t : Fin cfg2.N) (i : S800000x1.Idx) :
    i ∈ ((cfg2.win 9).blk t).view.set ↔ ∀ a : Fin 2, win2_9.index t a * S8000x1.size a ≤ (i a).val ∧ (i a).val < win2_9.index t a * S8000x1.size a + S8000x1.size a := by
  show i ∈ ((View.whole main_v64).slice (win2_9.rect t)).set ↔ _
  rw [View.set_slice_whole, Rect.mem_set_unit]
  exact Iff.rfl

/-- Every edge lies in the block of the point `e / 8000`: the hundred blocks of 8000 rows tile the 800000 edges. -/
theorem covered (i : S800000x1.Idx) :
    ∃ t : Fin cfg2.N, (cfg2.win 9).flush t = true ∧ i ∈ ((cfg2.win 9).blk t).view.set := by
  have hi0 : (i 0).val < 800000 := (i 0).isLt
  have hi1 : (i 1).val < 1 := (i 1).isLt
  have hN : cfg2.N = 100 := N_eq
  let t : Fin cfg2.N := ⟨(i 0).val / 8000, by rw [hN]; omega⟩
  have ht : t.val = (i 0).val / 8000 := rfl
  obtain ⟨-, -, -, -, -, -, -, -, -, -, -, -, -, -, -, -, -, -, e0, e1⟩ := idx_facts t
  refine ⟨t, flush2_9 t, ?_⟩
  rw [mem_blk]
  intro a
  match a with
  | ⟨0, _⟩ => show win2_9.index t (0 : Fin 2) * 8000 ≤ (i 0).val ∧ (i 0).val < win2_9.index t (0 : Fin 2) * 8000 + 8000; omega
  | ⟨1, _⟩ => show win2_9.index t (1 : Fin 2) * 1 ≤ (i 1).val ∧ (i 1).val < win2_9.index t (1 : Fin 2) * 1 + 1; omega

/-- What the region leaves in its output array: the edge logits of the nine arrays it was entered with. -/
theorem final (c : Dev nD) :
    (dat2 (F := Ideal) V c).arrAt 9 cfg2.N
      = edgeLogit (V c main_v50) (V c main_v57) (V c main_arg1) (V c main_v58) (V c main_v59) (V c main_v60)
          (V c main_v62) (V c main_v61) (V c main_v63) := by
  exact (dat2 (F := Ideal) V c).arrAt_eq_of_cover 9 _ (fun t _ => flushed_eq V c t) covered

end Cert.KernelIdeal.Head

end
-- ==== Proof.RefDense.lean ====
/-
  The reference's two dense layers, read as the same whole-array functions as the kernels'. The reference adds the bias
  between the two products, `(agg·Wagg + b) + x·Wroot`, where the kernel adds it last; the two groupings of a sum of three
  extended reals agree because addition there is commutative and associative.
-/
import proofs.«128906_j55078660604120_1_alg».proof.Proof.Gen.ReferenceIdeal.Read
import proofs.«128906_j55078660604120_1_alg».proof.Proof.EdgeGcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Read Cert.EdgeGcn

/-- The entry of the bias vector that its two broadcasts (128 → 1 × 128 → 50000 × 128) read at an index of the first
    layer is the one at that index's column. -/
theorem biasIdx1 (i : S50000x128.Idx) : idx_main_v23 (idx_main_v24 i) = ix1 (⟨(i 1).val, (i 1).isLt⟩ : Fin 128) := by
  funext a; match a with | ⟨0, _⟩ => rfl

/-- The same for the second layer's bias. -/
theorem biasIdx2 (i : S50000x128.Idx) : idx_main_v48 (idx_main_v49 i) = ix1 (⟨(i 1).val, (i 1).isLt⟩ : Fin 128) := by
  funext a; match a with | ⟨0, _⟩ => rfl

/-- The first layer of the reference (products, bias, clip at zero) is `denseRelu` of the aggregated features, the node
    features, the two weights and the bias read as a row `b`. -/
theorem layer1 (x0 : (⟨S50000x128, .f32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (x12 : (⟨S2x800000, .i32⟩ : BufTy).Contents (Elt Ideal))
    (b : SRow.Idx → EReal) (hb : ∀ c : Fin 128, b (biasAt c) = x3 (ix1 c)) :
    val_main_v28 (F := Ideal) x0 x2 x3 x4 x12 = denseRelu (val_main_v21 (F := Ideal) x0 x12) x0 x2 b x4 := by
  funext i
  rw [val_main_v28_apply, val_main_v27_apply, val_main_v25_apply, val_main_v22_apply, val_main_v24_apply,
    val_main_v23_apply, val_main_v26_apply, val_main_call0_v0_apply, val_main_call0_cst_apply, biasIdx1]
  unfold denseRelu denseLin
  rw [rowAt_eq, hb]
  simp only [Ideal.addf_def, Ideal.maximumf_def, Ideal.ofBits_def]
  -- (A + bias) + B = (A + B) + bias; the index builders under the two sums have the same bodies
  rw [add_right_comm]
  rfl

/-- The second layer of the reference (no clip) is `denseLin` of the second aggregate, the first layer's result, the two
    weights and the bias read as a row `b`. -/
theorem layer2 (x0 : (⟨S50000x128, .f32⟩ : BufTy).Contents (Elt Ideal)) (x2 : (⟨S128x128, .f32⟩ : BufTy).Contents (Elt Ideal))
    (x3 : (⟨S128, .f32⟩ : BufTy).Contents (Elt Ideal)) (x4 x5 : (⟨S128x128, .f32⟩ : BufTy).Contents (Elt Ideal))
    (x6 : (⟨S128, .f32⟩ : BufTy).Contents (Elt Ideal)) (x7 : (⟨S128x128, .f32⟩ : BufTy).Contents (Elt Ideal))
    (x12 : (⟨S2x800000, .i32⟩ : BufTy).Contents (Elt Ideal))
    (b : SRow.Idx → EReal) (hb : ∀ c : Fin 128, b (biasAt c) = x6 (ix1 c)) :
    val_main_v52 (F := Ideal) x0 x2 x3 x4 x5 x6 x7 x12
      = denseLin (val_main_v46 (F := Ideal) x0 x2 x3 x4 x12) (val_main_v28 (F := Ideal) x0 x2 x3 x4 x12) x5 b x7 := by
  funext i
  rw [val_main_v52_apply, val_main_v50_apply, val_main_v47_apply, val_main_v49_apply, val_main_v48_apply,
    val_main_v51_apply, biasIdx2]
  unfold denseLin
  rw [rowAt_eq, hb]
  simp only [Ideal.addf_def]
  -- (A + bias) + B = (A + B) + bias; the index builders under the two sums have the same bodies
  rw [add_right_comm]
  rfl

end Cert.ReferenceIdeal.RefValue

end
-- ==== Proof.RefHead.lean ====
/-
  The reference's edge head, read as the kernel's whole-array function. The reference joins the two endpoint embeddings and
  the edge attributes into one row of 288 features and contracts it with the whole first weight; the kernel contracts the
  three pieces with the three row blocks of that weight (rows 0–127, 128–255, 256–287) and adds. A sum over 288 terms is the
  sum of its first 128, its next 128 and its last 32 terms: finite sums in a commutative monoid. The second contraction (128
  hidden units against a 128 × 1 weight) is the kernel's row product summed along the row.
-/
import proofs.«128906_j55078660604120_1_alg».proof.Proof.Gen.ReferenceIdeal.Read
import proofs.«128906_j55078660604120_1_alg».proof.Proof.EdgeGcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Read Cert.EdgeGcn

/-- A sum of 288 terms is the sum of its first 128, its next 128 and its last 32 terms. -/
theorem sum_split_288 (f : Fin 288 → EReal) :
    ∑ k, f k = (∑ k : Fin 128, f ⟨k.val, by omega⟩) + (∑ k : Fin 128, f ⟨128 + k.val, by omega⟩)
      + ∑ k : Fin 32, f ⟨256 + k.val, by omega⟩ := by
  have h1 := Fin.sum_univ_add (M := EReal) (a := 128 + 128) (b := 32) f
  have h2 := Fin.sum_univ_add (M := EReal) (a := 128) (b := 128) (fun k => f (Fin.castAdd 32 k))
  exact h1.trans (congrArg (· + _) h2)

section Pieces

variable (x0 : (⟨S50000x128, .f32⟩ : BufTy).Contents (Elt Ideal)) (x1 : (⟨S800000x32, .f32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S288x128, .f32⟩ : BufTy).Contents (Elt Ideal))
    (x9 : (⟨S128, .f32⟩ : BufTy).Contents (Elt Ideal)) (x12 : (⟨S2x800000, .i32⟩ : BufTy).Contents (Elt Ideal))

/-- Columns 0–127 of the joined row are the first endpoint's embedding. -/
theorem joined_left (j : S800000x128.Idx) (k : Fin 128) :
    val_main_v67 (F := Ideal) x0 x1 x2 x3 x4 x5 x6 x7 x12 (lidx_main_v68 j ⟨k.val, by omega⟩)
      = val_main_v59 (F := Ideal) x0 x2 x3 x4 x5 x6 x7 x12 (edgeAt ⟨(j 0).val, (j 0).isLt⟩ k) := by
  unfold val_main_v67
  generalize val_main_v59 (F := Ideal) x0 x2 x3 x4 x5 x6 x7 x12 = hs
  generalize val_main_v66 (F := Ideal) x0 x2 x3 x4 x5 x6 x7 x12 = hd
  refine concatenate_apply_piece (t := S800000x288) 1 _ _ _ 0 (by exact Nat.zero_lt_succ _) S800000x128 hs rfl rfl 0 rfl _ ?_ ?_
  · intro b hb
    match b with
    | ⟨0, _⟩ => rfl
    | ⟨1, _⟩ => exact absurd rfl hb
  · exact Nat.zero_add _

/-- Columns 128–255 of the joined row are the second endpoint's embedding. -/
theorem joined_mid (j : S800000x128.Idx) (k : Fin 128) :
    val_main_v67 (F := Ideal) x0 x1 x2 x3 x4 x5 x6 x7 x12 (lidx_main_v68 j ⟨128 + k.val, by omega⟩)
      = val_main_v66 (F := Ideal) x0 x2 x3 x4 x5 x6 x7 x12 (edgeAt ⟨(j 0).val, (j 0).isLt⟩ k) := by
  unfold val_main_v67
  generalize val_main_v59 (F := Ideal) x0 x2 x3 x4 x5 x6 x7 x12 = hs
  generalize val_main_v66 (F := Ideal) x0 x2 x3 x4 x5 x6 x7 x12 = hd
  refine concatenate_apply_piece (t := S800000x288) 1 _ _ _ 1 (by exact Nat.succ_lt_succ (Nat.zero_lt_succ _)) S800000x128 hd rfl rfl 128 rfl _ ?_ ?_
  · intro b hb
    match b with
    | ⟨0, _⟩ => rfl
    | ⟨1, _⟩ => exact absurd rfl hb
  · rfl

/-- Columns 256–287 of the joined row are the edge's own attributes. -/
theorem joined_right (j : S800000x128.Idx) (k : Fin 32) :
    val_main_v67 (F := Ideal) x0 x1 x2 x3 x4 x5 x6 x7 x12 (lidx_main_v68 j ⟨256 + k.val, by omega⟩)
      = x1 (attrAt ⟨(j 0).val, (j 0).isLt⟩ k) := by
  unfold val_main_v67
  generalize val_main_v59 (F := Ideal) x0 x2 x3 x4 x5 x6 x7 x12 = hs
  generalize val_main_v66 (F := Ideal) x0 x2 x3 x4 x5 x6 x7 x12 = hd
  refine concatenate_apply_piece (t := S800000x288) 1 _ _ _ 2 (by exact Nat.succ_lt_succ (Nat.succ_lt_succ (Nat.zero_lt_succ _))) S800000x32 x1 rfl rfl 256 rfl _ ?_ ?_
  · intro b hb
    match b with
    | ⟨0, _⟩ => rfl
    | ⟨1, _⟩ => exact absurd rfl hb
  · rfl

/-- The weight's index for row `k`, at the column of `j`, in coordinates. -/
theorem weight_idx (j : S800000x128.Idx) (k : Fin 288) :
    ridx_main_v68 j k = ix2 k (⟨(j 1).val, (j 1).isLt⟩ : Fin 128) := by
  funext a; match a with | ⟨0, _⟩ => rfl | ⟨1, _⟩ => rfl

/-- The first bias, spread over the edges, is read at the column of `j`. -/
theorem bias_idx (j : S800000x128.Idx) :
    idx_main_v69 (idx_main_v70 j) = ix1 (⟨(j 1).val, (j 1).isLt⟩ : Fin 128) := by
  funext a; match a with | ⟨0, _⟩ => rfl

/-- The reference's hidden array at (e, c) is the specification's hidden unit `c` of edge `e`: the contraction over the
    288 joined features splits into the three blocks, each read through its own block of the weight. -/
theorem hidden_eq (ws wd : SSq.Idx → EReal) (we : SWAttr.Idx → EReal) (b1 : SRow.Idx → EReal)
    (hws : ∀ (k c : Fin 128), ws (sqAt k c) = x8 (ix2 (⟨k.val, by omega⟩ : Fin 288) c))
    (hwd : ∀ (k c : Fin 128), wd (sqAt k c) = x8 (ix2 (⟨128 + k.val, by omega⟩ : Fin 288) c))
    (hwe : ∀ (k : Fin 32) (c : Fin 128), we (wattrAt k c) = x8 (ix2 (⟨256 + k.val, by omega⟩ : Fin 288) c))
    (hb1 : ∀ c : Fin 128, b1 (biasAt c) = x9 (ix1 c)) (j : S800000x128.Idx) :
    val_main_v72 (F := Ideal) x0 x1 x2 x3 x4 x5 x6 x7 x8 x9 x12 j
      = edgeHidden (val_main_v59 (F := Ideal) x0 x2 x3 x4 x5 x6 x7 x12) (val_main_v66 (F := Ideal) x0 x2 x3 x4 x5 x6 x7 x12) x1
          ws wd we b1 ⟨(j 0).val, (j 0).isLt⟩ ⟨(j 1).val, (j 1).isLt⟩ := by
  rw [val_main_v72_apply, val_main_v71_apply, val_main_v68_apply, val_main_v70_apply, val_main_v69_apply,
    val_main_call1_v0_apply, val_main_call1_cst_apply, sum_split_288, Ideal.maximumf_def, Ideal.addf_def, Ideal.ofBits_def]
  unfold edgeHidden
  refine congrArg₂ max (congrArg₂ (· + ·) (congrArg₂ (· + ·) (congrArg₂ (· + ·) ?_ ?_) ?_) ?_) rfl
  · exact Finset.sum_congr rfl fun k _ => by rw [joined_left, hws, weight_idx]
  · exact Finset.sum_congr rfl fun k _ => by rw [joined_mid, hwd, weight_idx]
  · exact Finset.sum_congr rfl fun k _ => by rw [joined_right, hwe, weight_idx]
  · rw [hb1, bias_idx]

/-- The second weight's index for row `c`: its one column is column 0. -/
theorem out_weight_idx (i : S800000x1.Idx) (c : Fin 128) : ridx_main_v73 i c = ix2 c (0 : Fin 1) := by
  funext a
  match a with
  | ⟨0, _⟩ => rfl
  | ⟨1, _⟩ => exact Fin.ext (Nat.lt_one_iff.mp (i 1).isLt)

/-- The last bias, spread over the edges, is read at its one entry. -/
theorem out_bias_idx (i : S800000x1.Idx) : idx_main_v74 (idx_main_v75 i) = ix1 (0 : Fin 1) := by
  funext a; match a with | ⟨0, _⟩ => rfl

end Pieces

/-- The reference's result is `edgeLogit` of the two gathered endpoint embeddings and the edge attributes, for ANY reading
    `ws wd we` of the first weight's three row blocks, `b1` of its bias as a row, `w2` of the second weight as a row and
    `b2` of the last bias as a 1 × 1 array. -/
theorem head (x0 : (⟨S50000x128, .f32⟩ : BufTy).Contents (Elt Ideal)) (x1 : (⟨S800000x32, .f32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S288x128, .f32⟩ : BufTy).Contents (Elt Ideal))
    (x9 : (⟨S128, .f32⟩ : BufTy).Contents (Elt Ideal)) (x10 : (⟨S128x1, .f32⟩ : BufTy).Contents (Elt Ideal))
    (x11 : (⟨S1, .f32⟩ : BufTy).Contents (Elt Ideal)) (x12 : (⟨S2x800000, .i32⟩ : BufTy).Contents (Elt Ideal))
    (ws wd : SSq.Idx → EReal) (we : SWAttr.Idx → EReal) (b1 w2 : SRow.Idx → EReal) (b2 : SOne.Idx → EReal)
    (hws : ∀ (k c : Fin 128), ws (sqAt k c) = x8 (ix2 (⟨k.val, by omega⟩ : Fin 288) c))
    (hwd : ∀ (k c : Fin 128), wd (sqAt k c) = x8 (ix2 (⟨128 + k.val, by omega⟩ : Fin 288) c))
    (hwe : ∀ (k : Fin 32) (c : Fin 128), we (wattrAt k c) = x8 (ix2 (⟨256 + k.val, by omega⟩ : Fin 288) c))
    (hb1 : ∀ c : Fin 128, b1 (biasAt c) = x9 (ix1 c))
    (hw2 : ∀ c : Fin 128, w2 (biasAt c) = x10 (ix2 c (0 : Fin 1)))
    (hb2 : b2 oneAt = x11 (ix1 (0 : Fin 1))) :
    val_main_v76 (F := Ideal) x0 x1 x2 x3 x4 x5 x6 x7 x8 x9 x10 x11 x12
      = edgeLogit (val_main_v59 (F := Ideal) x0 x2 x3 x4 x5 x6 x7 x12) (val_main_v66 (F := Ideal) x0 x2 x3 x4 x5 x6 x7 x12) x1
          ws wd we b1 w2 b2 := by
  funext i
  rw [val_main_v76_apply, val_main_v73_apply, val_main_v75_apply, val_main_v74_apply, Ideal.addf_def]
  unfold edgeLogit
  refine congrArg₂ (· + ·) (Finset.sum_congr rfl fun c _ => ?_) ?_
  · rw [hidden_eq x0 x1 x2 x3 x4 x5 x6 x7 x8 x9 x12 ws wd we b1 hws hwd hwe hb1, hw2, out_weight_idx]
  · rw [hb2, out_bias_idx]

end Cert.ReferenceIdeal.RefValue

end
-- ==== Proof.ResultChain.lean ====
/-
  The kernel program's result as a function of its arguments. Between the three kernels the host computes, from the
  edge list, the mean of the source rows over each target node (a gather, a scatter-add, the in-degree clipped below at
  one, a division) and, before the last kernel, the two endpoint gathers; the reference computes the same operations on
  the same operands. So the contents each kernel is entered with are the reference's own stages, once the previous
  kernel's result is known to be the reference's stage: the first dense layer's result is the reference's clipped layer,
  the second's its second layer, and the edge head's its logits.
-/
import proofs.«128906_j55078660604120_1_alg».proof.Proof.KernelIdealRun
import proofs.«128906_j55078660604120_1_alg».proof.Proof.Gen.ReferenceIdeal.Read
import proofs.«128906_j55078660604120_1_alg».proof.Proof.EdgeGcnSpec
import proofs.«128906_j55078660604120_1_alg».proof.Proof.Dense0Value
import proofs.«128906_j55078660604120_1_alg».proof.Proof.Dense1Value
import proofs.«128906_j55078660604120_1_alg».proof.Proof.HeadValue
import proofs.«128906_j55078660604120_1_alg».proof.Proof.RefDense
import proofs.«128906_j55078660604120_1_alg».proof.Proof.RefHead
import Idealize.ShloMosaic.Lib.StableHlo.Run
import Idealize.ShloMosaic.Lib.Pipeline.Value
import Idealize.ShloMosaic.Lib.ValueIdx

set_option maxRecDepth 16384

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen Cert.EdgeGcn
open Cert.ReferenceIdeal.Read (val_main_v1 val_main_v3 val_main_v21 val_main_v28 val_main_v46 val_main_v52 val_main_v59 val_main_v66 val_main_v76)

variable (m : (ℓ : Loc nD τ sig) → Buf (Elt Ideal) ℓ) (ρ : Dev nD → PrngReg)

/-! ## The arguments as launched -/

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)
abbrev a11 (c : Dev nD) := m ((c : Thread nD τ).loc main_arg11)
abbrev a12 (c : Dev nD) := m ((c : Thread nD τ).loc main_arg12)

/-! ## Before the first kernel -/

set_option maxHeartbeats 4000000 in
/-- The source column of the edge list. -/
theorem w1_v1 (c : Dev nD) : W1 m ρ c (Proc.devRef .tc main_v1) = val_main_v1 (F := Ideal) (a12 m c) := by
  show StableHlo.after hostOps0 (W0 m ρ c) (Proc.devRef .tc main_v1) = _
  after_results_simp
  rfl
set_option maxHeartbeats 4000000 in
/-- The target column of the edge list. -/
theorem w1_v3 (c : Dev nD) : W1 m ρ c (Proc.devRef .tc main_v3) = val_main_v3 (F := Ideal) (a12 m c) := by
  show StableHlo.after hostOps0 (W0 m ρ c) (Proc.devRef .tc main_v3) = _
  after_results_simp
  rfl
set_option maxHeartbeats 4000000 in
/-- The first aggregate: the mean of the node features over each node's incoming edges. -/
theorem w1_v21 (c : Dev nD) : W1 m ρ c (Proc.devRef .tc main_v21) = val_main_v21 (F := Ideal) (a0 m c) (a12 m c) := by
  show StableHlo.after hostOps0 (W0 m ρ c) (Proc.devRef .tc main_v21) = _
  after_results_simp
  rfl
set_option maxHeartbeats 4000000 in
/-- The first bias as a row. -/
theorem w1_v22 (c : Dev nD) : W1 m ρ c (Proc.devRef .tc main_v22) = shapeCast S1x128 (a3 m c) shapeCasts_S128_S1x128 := by
  show StableHlo.after hostOps0 (W0 m ρ c) (Proc.devRef .tc main_v22) = _
  after_results_simp
  rfl
set_option maxHeartbeats 4000000 in
/-- No host operation before the first kernel writes an argument. -/
theorem w1_arg (c : Dev nD) :
    W1 m ρ c (Proc.devRef .tc main_arg0) = a0 m c ∧ W1 m ρ c (Proc.devRef .tc main_arg1) = a1 m c
    ∧ W1 m ρ c (Proc.devRef .tc main_arg2) = a2 m c ∧ W1 m ρ c (Proc.devRef .tc main_arg4) = a4 m c
    ∧ W1 m ρ c (Proc.devRef .tc main_arg5) = a5 m c ∧ W1 m ρ c (Proc.devRef .tc main_arg6) = a6 m c
    ∧ W1 m ρ c (Proc.devRef .tc main_arg7) = a7 m c ∧ W1 m ρ c (Proc.devRef .tc main_arg8) = a8 m c
    ∧ W1 m ρ c (Proc.devRef .tc main_arg9) = a9 m c ∧ W1 m ρ c (Proc.devRef .tc main_arg10) = a10 m c
    ∧ W1 m ρ c (Proc.devRef .tc main_arg11) = a11 m c := by
  refine ⟨?_, ?_, ?_, ?_, ?_, ?_, ?_, ?_, ?_, ?_, ?_⟩ <;>
  · show StableHlo.after hostOps0 (W0 m ρ c) _ = _
    after_results_simp

/-- A bias vector read as a row: column `q` of the row is entry `q` of the vector. -/
theorem row_of_vec (x : S128.Idx → EReal) (q : Fin 128) :
    shapeCast S1x128 x shapeCasts_S128_S1x128 (biasAt q) = x (ix1 q) :=
  shapeCast_apply x shapeCasts_S128_S1x128 (biasAt q) (ix1 q)
    (by rewrite [Shape.rowMajor_val_two, Shape.rowMajor_val_one]; show q.val = 0 * 128 + q.val; omega)

/-! ## The first kernel's result is the reference's first layer -/

theorem w2_v23 (c : Dev nD) :
    W2 m ρ c (Proc.devRef .tc main_v23) = val_main_v28 (F := Ideal) (a0 m c) (a2 m c) (a3 m c) (a4 m c) (a12 m c) := by
  refine (W2_arr m ρ c 5).trans ((Cert.KernelIdeal.Dense0.final (V1 m ρ) c).trans ?_)
  show denseRelu (W1 m ρ c (Proc.devRef .tc main_v21)) (W1 m ρ c (Proc.devRef .tc main_arg0)) (W1 m ρ c (Proc.devRef .tc main_arg2))
      (W1 m ρ c (Proc.devRef .tc main_v22)) (W1 m ρ c (Proc.devRef .tc main_arg4)) = _
  rw [w1_v21, w1_v22, (w1_arg m ρ c).1, (w1_arg m ρ c).2.2.1, (w1_arg m ρ c).2.2.2.1]
  exact (Cert.ReferenceIdeal.RefValue.layer1 _ _ _ _ _ _ (fun q => row_of_vec _ q)).symm

/-! ## Before the second kernel -/

theorem w2_v1 (c : Dev nD) : W2 m ρ c (Proc.devRef .tc main_v1) = val_main_v1 (F := Ideal) (a12 m c) :=
  (W2_of_ne m ρ c main_v1 (by decide)).trans (w1_v1 m ρ c)
theorem w2_v3 (c : Dev nD) : W2 m ρ c (Proc.devRef .tc main_v3) = val_main_v3 (F := Ideal) (a12 m c) :=
  (W2_of_ne m ρ c main_v3 (by decide)).trans (w1_v3 m ρ c)
/-- The first kernel writes none of the arguments the later stretches read. -/
theorem w2_arg (c : Dev nD) :
    W2 m ρ c (Proc.devRef .tc main_arg1) = a1 m c ∧ W2 m ρ c (Proc.devRef .tc main_arg5) = a5 m c
    ∧ W2 m ρ c (Proc.devRef .tc main_arg6) = a6 m c ∧ W2 m ρ c (Proc.devRef .tc main_arg7) = a7 m c
    ∧ W2 m ρ c (Proc.devRef .tc main_arg8) = a8 m c ∧ W2 m ρ c (Proc.devRef .tc main_arg9) = a9 m c
    ∧ W2 m ρ c (Proc.devRef .tc main_arg10) = a10 m c ∧ W2 m ρ c (Proc.devRef .tc main_arg11) = a11 m c :=
  ⟨(W2_of_ne m ρ c main_arg1 (by decide)).trans (w1_arg m ρ c).2.1,
   (W2_of_ne m ρ c main_arg5 (by decide)).trans (w1_arg m ρ c).2.2.2.2.1,
   (W2_of_ne m ρ c main_arg6 (by decide)).trans (w1_arg m ρ c).2.2.2.2.2.1,
   (W2_of_ne m ρ c main_arg7 (by decide)).trans (w1_arg m ρ c).2.2.2.2.2.2.1,
   (W2_of_ne m ρ c main_arg8 (by decide)).trans (w1_arg m ρ c).2.2.2.2.2.2.2.1,
   (W2_of_ne m ρ c main_arg9 (by decide)).trans (w1_arg m ρ c).2.2.2.2.2.2.2.2.1,
   (W2_of_ne m ρ c main_arg10 (by decide)).trans (w1_arg m ρ c).2.2.2.2.2.2.2.2.2.1,
   (W2_of_ne m ρ c main_arg11 (by decide)).trans (w1_arg m ρ c).2.2.2.2.2.2.2.2.2.2⟩

set_option maxHeartbeats 4000000 in
/-- The second aggregate: the same mean, of the first layer's result. -/
theorem w3_v41 (c : Dev nD) :
    W3 m ρ c (Proc.devRef .tc main_v41) = val_main_v46 (F := Ideal) (a0 m c) (a2 m c) (a3 m c) (a4 m c) (a12 m c) := by
  show StableHlo.after hostOps1 (W2 m ρ c) (Proc.devRef .tc main_v41) = _
  after_results_simp
  rw [w2_v23, w2_v1, w2_v3]
  rfl
set_option maxHeartbeats 4000000 in
/-- The stretch before the second kernel keeps the first layer's result, the edge list's columns and the arguments. -/
theorem w3_keep (c : Dev nD) :
    W3 m ρ c (Proc.devRef .tc main_v23) = W2 m ρ c (Proc.devRef .tc main_v23)
    ∧ W3 m ρ c (Proc.devRef .tc main_v1) = W2 m ρ c (Proc.devRef .tc main_v1)
    ∧ W3 m ρ c (Proc.devRef .tc main_v3) = W2 m ρ c (Proc.devRef .tc main_v3)
    ∧ W3 m ρ c (Proc.devRef .tc main_arg1) = W2 m ρ c (Proc.devRef .tc main_arg1)
    ∧ W3 m ρ c (Proc.devRef .tc main_arg5) = W2 m ρ c (Proc.devRef .tc main_arg5)
    ∧ W3 m ρ c (Proc.devRef .tc main_arg7) = W2 m ρ c (Proc.devRef .tc main_arg7)
    ∧ W3 m ρ c (Proc.devRef .tc main_arg8) = W2 m ρ c (Proc.devRef .tc main_arg8)
    ∧ W3 m ρ c (Proc.devRef .tc main_arg9) = W2 m ρ c (Proc.devRef .tc main_arg9)
    ∧ W3 m ρ c (Proc.devRef .tc main_arg10) = W2 m ρ c (Proc.devRef .tc main_arg10)
    ∧ W3 m ρ c (Proc.devRef .tc main_arg11) = W2 m ρ c (Proc.devRef .tc main_arg11) := by
  refine ⟨?_, ?_, ?_, ?_, ?_, ?_, ?_, ?_, ?_, ?_⟩ <;>
  · show StableHlo.after hostOps1 (W2 m ρ c) _ = _
    after_results_simp
set_option maxHeartbeats 4000000 in
/-- The second bias as a row. -/
theorem w3_v42 (c : Dev nD) : W3 m ρ c (Proc.devRef .tc main_v42) = shapeCast S1x128 (a6 m c) shapeCasts_S128_S1x128 := by
  show StableHlo.after hostOps1 (W2 m ρ c) (Proc.devRef .tc main_v42) = _
  after_results_simp
  rw [(w2_arg m ρ c).2.2.1]
  rfl

/-! ## The second kernel's result is the reference's second layer -/

theorem w4_v43 (c : Dev nD) :
    W4 m ρ c (Proc.devRef .tc main_v43)
      = val_main_v52 (F := Ideal) (a0 m c) (a2 m c) (a3 m c) (a4 m c) (a5 m c) (a6 m c) (a7 m c) (a12 m c) := by
  refine (W4_arr m ρ c 5).trans ((Cert.KernelIdeal.Dense1.final (V3 m ρ) c).trans ?_)
  show denseLin (W3 m ρ c (Proc.devRef .tc main_v41)) (W3 m ρ c (Proc.devRef .tc main_v23)) (W3 m ρ c (Proc.devRef .tc main_arg5))
      (W3 m ρ c (Proc.devRef .tc main_v42)) (W3 m ρ c (Proc.devRef .tc main_arg7)) = _
  rw [w3_v41, w3_v42, (w3_keep m ρ c).1, (w3_keep m ρ c).2.2.2.2.1, (w3_keep m ρ c).2.2.2.2.2.1, w2_v23,
    (w2_arg m ρ c).2.1, (w2_arg m ρ c).2.2.2.1]
  exact (Cert.ReferenceIdeal.RefValue.layer2 _ _ _ _ _ _ _ _ _ (fun q => row_of_vec _ q)).symm

/-! ## Before the last kernel -/

theorem w4_v1 (c : Dev nD) : W4 m ρ c (Proc.devRef .tc main_v1) = val_main_v1 (F := Ideal) (a12 m c) :=
  (W4_of_ne m ρ c main_v1 (by decide)).trans ((w3_keep m ρ c).2.1.trans (w2_v1 m ρ c))
theorem w4_v3 (c : Dev nD) : W4 m ρ c (Proc.devRef .tc main_v3) = val_main_v3 (F := Ideal) (a12 m c) :=
  (W4_of_ne m ρ c main_v3 (by decide)).trans ((w3_keep m ρ c).2.2.1.trans (w2_v3 m ρ c))
/-- The second kernel writes none of the arguments the last stretch reads. -/
theorem w4_arg (c : Dev nD) :
    W4 m ρ c (Proc.devRef .tc main_arg1) = a1 m c ∧ W4 m ρ c (Proc.devRef .tc main_arg8) = a8 m c
    ∧ W4 m ρ c (Proc.devRef .tc main_arg9) = a9 m c ∧ W4 m ρ c (Proc.devRef .tc main_arg10) = a10 m c
    ∧ W4 m ρ c (Proc.devRef .tc main_arg11) = a11 m c :=
  ⟨(W4_of_ne m ρ c main_arg1 (by decide)).trans ((w3_keep m ρ c).2.2.2.1.trans (w2_arg m ρ c).1),
   (W4_of_ne m ρ c main_arg8 (by decide)).trans ((w3_keep m ρ c).2.2.2.2.2.2.1.trans (w2_arg m ρ c).2.2.2.2.1),
   (W4_of_ne m ρ c main_arg9 (by decide)).trans ((w3_keep m ρ c).2.2.2.2.2.2.2.1.trans (w2_arg m ρ c).2.2.2.2.2.1),
   (W4_of_ne m ρ c main_arg10 (by decide)).trans ((w3_keep m ρ c).2.2.2.2.2.2.2.2.1.trans (w2_arg m ρ c).2.2.2.2.2.2.1),
   (W4_of_ne m ρ c main_arg11 (by decide)).trans ((w3_keep m ρ c).2.2.2.2.2.2.2.2.2.trans (w2_arg m ρ c).2.2.2.2.2.2.2)⟩

set_option maxHeartbeats 4000000 in
/-- The second layer's rows at the edges' sources. -/
theorem w5_v50 (c : Dev nD) :
    W5 m ρ c (Proc.devRef .tc main_v50)
      = val_main_v59 (F := Ideal) (a0 m c) (a2 m c) (a3 m c) (a4 m c) (a5 m c) (a6 m c) (a7 m c) (a12 m c) := by
  show StableHlo.after hostOps2 (W4 m ρ c) (Proc.devRef .tc main_v50) = _
  after_results_simp
  rw [w4_v43, w4_v1]
  rfl
set_option maxHeartbeats 4000000 in
/-- The second layer's rows at the edges' targets. -/
theorem w5_v57 (c : Dev nD) :
    W5 m ρ c (Proc.devRef .tc main_v57)
      = val_main_v66 (F := Ideal) (a0 m c) (a2 m c) (a3 m c) (a4 m c) (a5 m c) (a6 m c) (a7 m c) (a12 m c) := by
  show StableHlo.after hostOps2 (W4 m ρ c) (Proc.devRef .tc main_v57) = _
  after_results_simp
  rw [w4_v43, w4_v3]
  rfl
set_option maxHeartbeats 4000000 in
/-- The last stretch keeps the edge attributes. -/
theorem w5_arg1 (c : Dev nD) : W5 m ρ c (Proc.devRef .tc main_arg1) = a1 m c := by
  show StableHlo.after hostOps2 (W4 m ρ c) (Proc.devRef .tc main_arg1) = _
  after_results_simp
  exact (w4_arg m ρ c).1
set_option maxHeartbeats 4000000 in
/-- The three row blocks of the first head weight, and the two biases and the second weight as rows. -/
theorem w5_weights (c : Dev nD) :
    W5 m ρ c (Proc.devRef .tc main_v58) = extractStridedSlice S128x128 ![0, 0] (a8 m c) slices_S288x128_S128x128_0_0
    ∧ W5 m ρ c (Proc.devRef .tc main_v59) = extractStridedSlice S128x128 ![128, 0] (a8 m c) slices_S288x128_S128x128_128_0
    ∧ W5 m ρ c (Proc.devRef .tc main_v60) = extractStridedSlice S32x128 ![256, 0] (a8 m c) slices_S288x128_S32x128_256_0
    ∧ W5 m ρ c (Proc.devRef .tc main_v62) = shapeCast S1x128 (a9 m c) shapeCasts_S128_S1x128
    ∧ W5 m ρ c (Proc.devRef .tc main_v61) = shapeCast S1x128 (a10 m c) shapeCasts_S128x1_S1x128
    ∧ W5 m ρ c (Proc.devRef .tc main_v63) = shapeCast S1x1 (a11 m c) shapeCasts_S1_S1x1 := by
  refine ⟨?_, ?_, ?_, ?_, ?_, ?_⟩
  · show StableHlo.after hostOps2 (W4 m ρ c) (Proc.devRef .tc main_v58) = _
    after_results_simp; rw [(w4_arg m ρ c).2.1]
  · show StableHlo.after hostOps2 (W4 m ρ c) (Proc.devRef .tc main_v59) = _
    after_results_simp; rw [(w4_arg m ρ c).2.1]
  · show StableHlo.after hostOps2 (W4 m ρ c) (Proc.devRef .tc main_v60) = _
    after_results_simp; rw [(w4_arg m ρ c).2.1]
  · show StableHlo.after hostOps2 (W4 m ρ c) (Proc.devRef .tc main_v62) = _
    after_results_simp; rw [(w4_arg m ρ c).2.2.1]; rfl
  · show StableHlo.after hostOps2 (W4 m ρ c) (Proc.devRef .tc main_v61) = _
    after_results_simp; rw [(w4_arg m ρ c).2.2.2.1]; rfl
  · show StableHlo.after hostOps2 (W4 m ρ c) (Proc.devRef .tc main_v63) = _
    after_results_simp; rw [(w4_arg m ρ c).2.2.2.2]; rfl

/-! ## The weights' pieces at an index -/

/-- Rows 0–127 of the first head weight. -/
theorem block0_apply (x : S288x128.Idx → EReal) (k c : Fin 128) :
    extractStridedSlice S128x128 ![0, 0] x slices_S288x128_S128x128_0_0 (sqAt k c) = x (ix2 (⟨k.val, by omega⟩ : Fin 288) c) :=
  extractStridedSlice_apply ![0, 0] x slices_S288x128_S128x128_0_0 (sqAt k c) (ix2 (⟨k.val, by omega⟩ : Fin 288) c)
    (fun a => match a with
      | ⟨0, _⟩ => by show k.val = 0 + k.val; omega
      | ⟨1, _⟩ => by show c.val = 0 + c.val; omega)
/-- Rows 128–255. -/
theorem block1_apply (x : S288x128.Idx → EReal) (k c : Fin 128) :
    extractStridedSlice S128x128 ![128, 0] x slices_S288x128_S128x128_128_0 (sqAt k c) = x (ix2 (⟨128 + k.val, by omega⟩ : Fin 288) c) :=
  extractStridedSlice_apply ![128, 0] x slices_S288x128_S128x128_128_0 (sqAt k c) (ix2 (⟨128 + k.val, by omega⟩ : Fin 288) c)
    (fun a => match a with
      | ⟨0, _⟩ => by show 128 + k.val = 128 + k.val; rfl
      | ⟨1, _⟩ => by show c.val = 0 + c.val; omega)
/-- Rows 256–287. -/
theorem block2_apply (x : S288x128.Idx → EReal) (k : Fin 32) (c : Fin 128) :
    extractStridedSlice S32x128 ![256, 0] x slices_S288x128_S32x128_256_0 (wattrAt k c) = x (ix2 (⟨256 + k.val, by omega⟩ : Fin 288) c) :=
  extractStridedSlice_apply ![256, 0] x slices_S288x128_S32x128_256_0 (wattrAt k c) (ix2 (⟨256 + k.val, by omega⟩ : Fin 288) c)
    (fun a => match a with
      | ⟨0, _⟩ => by show 256 + k.val = 256 + k.val; rfl
      | ⟨1, _⟩ => by show c.val = 0 + c.val; omega)
/-- The 128 × 1 second weight read as a row. -/
theorem row_of_col (x : S128x1.Idx → EReal) (q : Fin 128) :
    shapeCast S1x128 x shapeCasts_S128x1_S1x128 (biasAt q) = x (ix2 q (0 : Fin 1)) :=
  shapeCast_apply x shapeCasts_S128x1_S1x128 (biasAt q) (ix2 q (0 : Fin 1))
    (by rewrite [Shape.rowMajor_val_two, Shape.rowMajor_val_two]; show q.val * 1 + 0 = 0 * 128 + q.val; omega)
/-- The one-entry last bias read as a 1 × 1 array. -/
theorem one_of_vec (x : S1.Idx → EReal) :
    shapeCast S1x1 x shapeCasts_S1_S1x1 oneAt = x (ix1 (0 : Fin 1)) :=
  shapeCast_apply x shapeCasts_S1_S1x1 oneAt (ix1 (0 : Fin 1))
    (by rewrite [Shape.rowMajor_val_two, Shape.rowMajor_val_one]; show 0 = 0 * 1 + 0; rfl)

/-! ## The last kernel's result is the reference's result -/

/-- What the result buffer holds when @main returns: the reference's last stage of the launch contents. -/
theorem result (c : Dev nD) :
    W6 m ρ c (Proc.devRef .tc main_v64)
      = val_main_v76 (F := Ideal) (a0 m c) (a1 m c) (a2 m c) (a3 m c) (a4 m c) (a5 m c) (a6 m c) (a7 m c) (a8 m c) (a9 m c)
          (a10 m c) (a11 m c) (a12 m c) := by
  refine (W6_arr m ρ c 9).trans ((Cert.KernelIdeal.Head.final (V5 m ρ) c).trans ?_)
  show edgeLogit (W5 m ρ c (Proc.devRef .tc main_v50)) (W5 m ρ c (Proc.devRef .tc main_v57)) (W5 m ρ c (Proc.devRef .tc main_arg1))
      (W5 m ρ c (Proc.devRef .tc main_v58)) (W5 m ρ c (Proc.devRef .tc main_v59)) (W5 m ρ c (Proc.devRef .tc main_v60))
      (W5 m ρ c (Proc.devRef .tc main_v62)) (W5 m ρ c (Proc.devRef .tc main_v61)) (W5 m ρ c (Proc.devRef .tc main_v63)) = _
  rw [w5_v50, w5_v57, w5_arg1, (w5_weights m ρ c).1, (w5_weights m ρ c).2.1, (w5_weights m ρ c).2.2.1,
    (w5_weights m ρ c).2.2.2.1, (w5_weights m ρ c).2.2.2.2.1, (w5_weights m ρ c).2.2.2.2.2]
  exact (Cert.ReferenceIdeal.RefValue.head _ _ _ _ _ _ _ _ _ _ _ _ _ _ _ _ _ _ _
    (fun k q => block0_apply _ k q) (fun k q => block1_apply _ k q) (fun k q => block2_apply _ k q)
    (fun q => row_of_vec _ q) (fun q => row_of_col _ q) (one_of_vec _)).symm

end Cert.KernelIdeal.Chain

end
-- ==== Proof.lean ====
/-
  The certificate of an edge classifier over a two-layer mean-aggregation graph network: three kernels (two dense node
  layers tiled over blocks of 5000 nodes, an edge head tiled over blocks of 8000 edges) among host stretches that gather
  rows along the edges and average them per target node, against one plain reference.

  At the ideal instance a change of float format is the identity, so each dense kernel computes, per node and channel,
  (Σₖ agg·Wagg + Σₖ x·Wroot) + b where the reference computes (Σₖ agg·Wagg + b) + Σₖ x·Wroot: the same sum of three
  extended reals regrouped. The edge head contracts the two endpoint embeddings and the edge attributes with the three row
  blocks of the first weight where the reference contracts their concatenation with the whole weight: a sum of 288 terms
  split as 128 + 128 + 32; its last product against a 128 × 1 weight is the kernel's row product summed along the row.
  The gathers, the scatter-adds and the division by the clipped in-degree are the same host operations on both sides and
  are never opened. No step needs the inputs to be finite.

  The frames of the two kernel programs are the generated ones; the reference's is its generated run with the result
  dropped; the idealization rewrote nothing, so its conjunct is `True`.
-/
import proofs.«128906_j55078660604120_1_alg».proof.Defs
import proofs.«128906_j55078660604120_1_alg».proof.Proof.Gen.Kernel
import proofs.«128906_j55078660604120_1_alg».proof.Proof.Gen.Kernel.Skeleton
import proofs.«128906_j55078660604120_1_alg».proof.Proof.Gen.Kernel.Launch
import proofs.«128906_j55078660604120_1_alg».proof.Proof.Gen.Kernel.Points
import proofs.«128906_j55078660604120_1_alg».proof.Proof.Gen.Kernel.Frame
import proofs.«128906_j55078660604120_1_alg».proof.Proof.Gen.KernelIdeal
import proofs.«128906_j55078660604120_1_alg».proof.Proof.Gen.KernelIdeal.Skeleton
import proofs.«128906_j55078660604120_1_alg».proof.Proof.Gen.KernelIdeal.Launch
import proofs.«128906_j55078660604120_1_alg».proof.Proof.Gen.KernelIdeal.Points
import proofs.«128906_j55078660604120_1_alg».proof.Proof.Gen.KernelIdeal.Frame
import proofs.«128906_j55078660604120_1_alg».proof.Proof.Gen.ReferenceIdeal
import proofs.«128906_j55078660604120_1_alg».proof.Proof.Gen.Pre_finite_inputs
import proofs.«128906_j55078660604120_1_alg».proof.Proof.Gen.ReferenceIdeal.Run
import proofs.«128906_j55078660604120_1_alg».proof.Proof.Gen.ReferenceIdeal.Read
import proofs.«128906_j55078660604120_1_alg».proof.Proof.KernelIdealRun
import proofs.«128906_j55078660604120_1_alg».proof.Proof.ResultChain
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the reference's last stage of those arguments in their
    result buffers: the kernel program by the chain of its three kernels' values, the reference by its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v76 (F := Ideal) (Cert.KernelIdeal.Chain.a0 m c) (Cert.KernelIdeal.Chain.a1 m c)
      (Cert.KernelIdeal.Chain.a2 m c) (Cert.KernelIdeal.Chain.a3 m c) (Cert.KernelIdeal.Chain.a4 m c) (Cert.KernelIdeal.Chain.a5 m c)
      (Cert.KernelIdeal.Chain.a6 m c) (Cert.KernelIdeal.Chain.a7 m c) (Cert.KernelIdeal.Chain.a8 m c) (Cert.KernelIdeal.Chain.a9 m c)
      (Cert.KernelIdeal.Chain.a10 m c) (Cert.KernelIdeal.Chain.a11 m c) (Cert.KernelIdeal.Chain.a12 m c), ?_, ?_⟩
  · exact (θ_run Cert.KernelIdeal.defs _ _).mono
      (fun r h c => ⟨(h c).1.trans (Cert.KernelIdeal.Chain.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v76_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
